-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x8 : Shape := ⟨2, ![65536, 8]⟩
abbrev S10x8 : Shape := ⟨2, ![10, 8]⟩
abbrev S10 : Shape := ⟨1, ![10]⟩
abbrev S10x10 : Shape := ⟨2, ![10, 10]⟩
abbrev S8x10 : Shape := ⟨2, ![8, 10]⟩
abbrev S8 : Shape := ⟨1, ![8]⟩
abbrev S_ : Shape := ⟨0, ![]⟩

class Facts : Prop where
  bcast_S_S65536x8 : S_.BroadcastsInDim S65536x8 (![] : Fin 0 → Fin S65536x8.rank)
  reducesTo_S65536x8_S_d0_1 : S65536x8.ReducesTo [0, 1] S_
  h_S_ : 0 < S_.numel
  bcast_S_S10x8 : S_.BroadcastsInDim S10x8 (![] : Fin 0 → Fin S10x8.rank)
  reducesTo_S10x8_S_d0_1 : S10x8.ReducesTo [0, 1] S_
  bcast_S_S10 : S_.BroadcastsInDim S10 (![] : Fin 0 → Fin S10.rank)
  reducesTo_S10_S_d0 : S10.ReducesTo [0] S_
  bcast_S_S10x10 : S_.BroadcastsInDim S10x10 (![] : Fin 0 → Fin S10x10.rank)
  reducesTo_S10x10_S_d0_1 : S10x10.ReducesTo [0, 1] S_
  bcast_S_S8x10 : S_.BroadcastsInDim S8x10 (![] : Fin 0 → Fin S8x10.rank)
  reducesTo_S8x10_S_d0_1 : S8x10.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg7 : FVec F S8 .f32) (main_v33 : IVec S_ 1) : IVec S_ 1 :=
  let main_v34 : FVec F S8 .f32 := Host.absf main_arg7
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  main_v38

def fn_part1 {F : FTy → Type} [FloatOps F] (main_arg4 : FVec F S10x10 .f32) (main_arg5 : FVec F S10 .f32) (main_arg6 : FVec F S8x10 .f32) (main_arg7 : FVec F S8 .f32) (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  let main_v19 : FVec F S10x10 .f32 := Host.absf main_arg4
  let main_cst_6 : FVec F S_ .f32 := constant S_ .f32 0x7F800000#32
  let main_v20 : FVec F S10x10 .f32 := broadcastInDim S10x10 ![] bcast_S_S10x10 main_cst_6
  let main_v21 : IVec S10x10 1 := cmpf .olt main_v19 main_v20
  let main_c_7 : IVec S_ 1 := constantI S_ 1 1#1
  let main_v22 : IVec S_ 1 := (fun x v => Host.reduce IntOp.andi x v reducesTo_S10x10_S_d0_1 h_S_) main_v21 main_c_7
  let main_v23 : IVec S_ 1 := andi main_v18 main_v22
  let main_v24 : FVec F S10 .f32 := Host.absf main_arg5
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S8x10 .f32 := Host.absf main_arg6
  let main_cst_10 : FVec F S_ .f32 := constant S_ .f32 0x7F800000#32
  let main_v30 : FVec F S8x10 .f32 := broadcastInDim S8x10 ![] bcast_S_S8x10 main_cst_10
  let main_v31 : IVec S8x10 1 := cmpf .olt main_v29 main_v30
  let main_c_11 : IVec S_ 1 := constantI S_ 1 1#1
  let main_v32 : IVec S_ 1 := (fun x v => Host.reduce IntOp.andi x v reducesTo_S8x10_S_d0_1 h_S_) main_v31 main_c_11
  let main_v33 : IVec S_ 1 := andi main_v28 main_v32
  fn_part2 (F := F) main_arg7 main_v33

def fn {F : FTy → Type} [FloatOps F] (main_arg0 : FVec F S65536x8 .f32) (main_arg1 : FVec F S65536x8 .f32) (main_arg2 : FVec F S10x8 .f32) (main_arg3 : FVec F S10 .f32) (main_arg4 : FVec F S10x10 .f32) (main_arg5 : FVec F S10 .f32) (main_arg6 : FVec F S8x10 .f32) (main_arg7 : FVec F S8 .f32) : IVec S_ 1 :=
  let main_v0 : FVec F S65536x8 .f32 := Host.absf main_arg0
  let main_cst : FVec F S_ .f32 := constant S_ .f32 0x7F800000#32
  let main_v1 : FVec F S65536x8 .f32 := broadcastInDim S65536x8 ![] bcast_S_S65536x8 main_cst
  let main_v2 : IVec S65536x8 1 := cmpf .olt main_v0 main_v1
  let main_c : IVec S_ 1 := constantI S_ 1 1#1
  let main_v3 : IVec S_ 1 := (fun x v => Host.reduce IntOp.andi x v reducesTo_S65536x8_S_d0_1 h_S_) main_v2 main_c
  let main_v4 : FVec F S65536x8 .f32 := Host.absf main_arg1
  let main_cst_0 : FVec F S_ .f32 := constant S_ .f32 0x7F800000#32
  let main_v5 : FVec F S65536x8 .f32 := broadcastInDim S65536x8 ![] bcast_S_S65536x8 main_cst_0
  let main_v6 : IVec S65536x8 1 := cmpf .olt main_v4 main_v5
  let main_c_1 : IVec S_ 1 := constantI S_ 1 1#1
  let main_v7 : IVec S_ 1 := (fun x v => Host.reduce IntOp.andi x v reducesTo_S65536x8_S_d0_1 h_S_) main_v6 main_c_1
  let main_v8 : IVec S_ 1 := andi main_v3 main_v7
  let main_v9 : FVec F S10x8 .f32 := Host.absf main_arg2
  let main_cst_2 : FVec F S_ .f32 := constant S_ .f32 0x7F800000#32
  let main_v10 : FVec F S10x8 .f32 := broadcastInDim S10x8 ![] bcast_S_S10x8 main_cst_2
  let main_v11 : IVec S10x8 1 := cmpf .olt main_v9 main_v10
  let main_c_3 : IVec S_ 1 := constantI S_ 1 1#1
  let main_v12 : IVec S_ 1 := (fun x v => Host.reduce IntOp.andi x v reducesTo_S10x8_S_d0_1 h_S_) main_v11 main_c_3
  let main_v13 : IVec S_ 1 := andi main_v8 main_v12
  let main_v14 : FVec F S10 .f32 := Host.absf main_arg3
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_arg4 main_arg5 main_arg6 main_arg7 main_v13 main_v16
-- ==== Kernel.lean ====
abbrev S65536x8 : Shape := ⟨2, ![65536, 8]⟩
abbrev S10x8 : Shape := ⟨2, ![10, 8]⟩
abbrev S10 : Shape := ⟨1, ![10]⟩
abbrev S10x10 : Shape := ⟨2, ![10, 10]⟩
abbrev S8x10 : Shape := ⟨2, ![8, 10]⟩
abbrev S8 : Shape := ⟨1, ![8]⟩
abbrev S256x8 : Shape := ⟨2, ![256, 8]⟩
abbrev S256x7 : Shape := ⟨2, ![256, 7]⟩
abbrev S65536 : Shape := ⟨1, ![65536]⟩
abbrev S4096x8 : Shape := ⟨2, ![4096, 8]⟩
abbrev S4096 : Shape := ⟨1, ![4096]⟩
abbrev S4096x10 : Shape := ⟨2, ![4096, 10]⟩
abbrev S1x10 : Shape := ⟨2, ![1, 10]⟩
abbrev S1x8 : Shape := ⟨2, ![1, 8]⟩
abbrev S8x256 : Shape := ⟨2, ![8, 256]⟩
abbrev S4096x256 : Shape := ⟨2, ![4096, 256]⟩
abbrev S4096x7 : Shape := ⟨2, ![4096, 7]⟩
abbrev S7x256 : Shape := ⟨2, ![7, 256]⟩

abbrev nBuf : Space → Nat
  | .hbm => 11
  | .vmem => 14
  | .smem => 0
  | _ => 0

abbrev bufTy : (tb : Table) → Fin (tcTables nBuf tb) → BufTy
  | .hbm, ⟨0, _⟩ => ⟨S65536x8, .f32⟩
  | .hbm, ⟨1, _⟩ => ⟨S65536x8, .f32⟩
  | .hbm, ⟨2, _⟩ => ⟨S10x8, .f32⟩
  | .hbm, ⟨3, _⟩ => ⟨S10, .f32⟩
  | .hbm, ⟨4, _⟩ => ⟨S10x10, .f32⟩
  | .hbm, ⟨5, _⟩ => ⟨S10, .f32⟩
  | .hbm, ⟨6, _⟩ => ⟨S8x10, .f32⟩
  | .hbm, ⟨7, _⟩ => ⟨S8, .f32⟩
  | .hbm, ⟨8, _⟩ => ⟨S256x8, .f32⟩
  | .hbm, ⟨9, _⟩ => ⟨S256x7, .f32⟩
  | .hbm, ⟨10, _⟩ => ⟨S65536, .f32⟩
  | .local _ .vmem, ⟨0, _⟩ => ⟨S4096x8, .f32⟩
  | .local _ .vmem, ⟨1, _⟩ => ⟨S4096x8, .f32⟩
  | .local _ .vmem, ⟨2, _⟩ => ⟨S4096x8, .f32⟩
  | .local _ .vmem, ⟨3, _⟩ => ⟨S4096x8, .f32⟩
  | .local _ .vmem, ⟨4, _⟩ => ⟨S10x8, .f32⟩
  | .local _ .vmem, ⟨5, _⟩ => ⟨S10, .f32⟩
  | .local _ .vmem, ⟨6, _⟩ => ⟨S10x10, .f32⟩
  | .local _ .vmem, ⟨7, _⟩ => ⟨S10, .f32⟩
  | .local _ .vmem, ⟨8, _⟩ => ⟨S8x10, .f32⟩
  | .local _ .vmem, ⟨9, _⟩ => ⟨S8, .f32⟩
  | .local _ .vmem, ⟨10, _⟩ => ⟨S256x8, .f32⟩
  | .local _ .vmem, ⟨11, _⟩ => ⟨S256x7, .f32⟩
  | .local _ .vmem, ⟨12, _⟩ => ⟨S4096, .f32⟩
  | .local _ .vmem, ⟨13, _⟩ => ⟨S4096, .f32⟩
  | _, _ => ⟨S65536x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x7 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  inb_S10x8_S10x8_0_0 : ∀ a, (![0, 0] : Fin 2 → Nat) a + S10x8.size a ≤ S10x8.size a
  h_S10x8 : 0 < S10x8.numel
  inb_S10_S10_0 : ∀ a, (![0] : Fin 1 → Nat) a + S10.size a ≤ S10.size a
  h_S10 : 0 < S10.numel
  inb_S10x10_S10x10_0_0 : ∀ a, (![0, 0] : Fin 2 → Nat) a + S10x10.size a ≤ S10x10.size a
  h_S10x10 : 0 < S10x10.numel
  inb_S8x10_S8x10_0_0 : ∀ a, (![0, 0] : Fin 2 → Nat) a + S8x10.size a ≤ S8x10.size a
  h_S8x10 : 0 < S8x10.numel
  inb_S8_S8_0 : ∀ a, (![0] : Fin 1 → Nat) a + S8.size a ≤ S8.size a
  h_S8 : 0 < S8.numel
  inb_S256x8_S256x8_0_0 : ∀ a, (![0, 0] : Fin 2 → Nat) a + S256x8.size a ≤ S256x8.size a
  h_S256x8 : 0 < S256x8.numel
  inb_S256x7_S256x7_0_0 : ∀ a, (![0, 0] : Fin 2 → Nat) a + S256x7.size a ≤ S256x7.size a
  h_S256x7 : 0 < S256x7.numel
  inb_S4096x8_S4096x8_0_0 : ∀ a, (![0, 0] : Fin 2 → Nat) a + S4096x8.size a ≤ S4096x8.size a
  h_S4096x8 : 0 < S4096x8.numel
  transposes_S10x8_p1_0_S8x10 : S10x8.Transposes [1, 0] S8x10
  shapeCasts_S10_S1x10 : S10.ShapeCasts S1x10
  broadcasts_S1x10_S4096x10 : S1x10.Broadcasts S4096x10
  transposes_S10x10_p1_0_S10x10 : S10x10.Transposes [1, 0] S10x10
  transposes_S8x10_p1_0_S10x8 : S8x10.Transposes [1, 0] S10x8
  shapeCasts_S8_S1x8 : S8.ShapeCasts S1x8
  broadcasts_S1x8_S4096x8 : S1x8.Broadcasts S4096x8
  transposes_S256x8_p1_0_S8x256 : S256x8.Transposes [1, 0] S8x256
  slices_S4096x8_o0_0_S4096x7 : S4096x8.Slices ![0, 0] S4096x7
  slices_S4096x8_o0_1_S4096x7 : S4096x8.Slices ![0, 1] S4096x7
  transposes_S256x7_p1_0_S7x256 : S256x7.Transposes [1, 0] S7x256
  reduces_S4096x256_S4096 : S4096x256.Reduces [1] S4096
  inb_S4096_S4096_0 : ∀ a, (![0] : Fin 1 → Nat) a + S4096.size a ≤ S4096.size a
  h_S4096 : 0 < S4096.numel
  dot_S4096x8_S8x10_S4096x10_1_0_0_1_n_n_wf : DotDims.WF S4096x8 S8x10 S4096x10 [1] [0] [0] [1] [] []
  dot_S4096x10_S10x10_S4096x10_1_0_0_1_n_n_wf : DotDims.WF S4096x10 S10x10 S4096x10 [1] [0] [0] [1] [] []
  dot_S4096x10_S10x8_S4096x8_1_0_0_1_n_n_wf : DotDims.WF S4096x10 S10x8 S4096x8 [1] [0] [0] [1] [] []
  dot_S4096x8_S8x256_S4096x256_1_0_0_1_n_n_wf : DotDims.WF S4096x8 S8x256 S4096x256 [1] [0] [0] [1] [] []
  dot_S4096x7_S7x256_S4096x256_1_0_0_1_n_n_wf : DotDims.WF S4096x7 S7x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x8.size a ≤ S65536x8.size a
  hwx0_0 : ∀ i : grid0.Coords, EltTy.bits .f32 = 32 ∨ (Rect.block (s := S65536x8) S4096x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x8.size a ≤ S65536x8.size a
  hwx0_1 : ∀ i : grid0.Coords, EltTy.bits .f32 = 32 ∨ (Rect.block (s := S65536x8) S4096x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x8.size a ≤ S10x8.size a
  hwx0_2 : ∀ i : grid0.Coords, EltTy.bits .f32 = 32 ∨ (Rect.block (s := S10x8) S10x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10.size a ≤ S10.size a
  hwx0_3 : ∀ i : grid0.Coords, EltTy.bits .f32 = 32 ∨ (Rect.block (s := S10) S10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x10.size a ≤ S10x10.size a
  hwx0_4 : ∀ i : grid0.Coords, EltTy.bits .f32 = 32 ∨ (Rect.block (s := S10x10) S10x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10.size a ≤ S10.size a
  hwx0_5 : ∀ i : grid0.Coords, EltTy.bits .f32 = 32 ∨ (Rect.block (s := S10) S10.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x10.size a ≤ S8x10.size a
  hwx0_6 : ∀ i : grid0.Coords, EltTy.bits .f32 = 32 ∨ (Rect.block (s := S8x10) S8x10.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8.size a ≤ S8.size a
  hwx0_7 : ∀ i : grid0.Coords, EltTy.bits .f32 = 32 ∨ (Rect.block (s := S8) S8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x8.size a ≤ S256x8.size a
  hwx0_8 : ∀ i : grid0.Coords, EltTy.bits .f32 = 32 ∨ (Rect.block (s := S256x8) S256x8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x7.size a ≤ S256x7.size a
  hwx0_9 : ∀ i : grid0.Coords, EltTy.bits .f32 = 32 ∨ (Rect.block (s := S256x7) S256x7.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4096.size a ≤ S65536.size a
  hwx0_10 : ∀ i : grid0.Coords, EltTy.bits .f32 = 32 ∨ (Rect.block (s := S65536) S4096.size (cc0_transform_10 i) (hinb0_10 i)).WholeWords (EltTy.packing .f32)

variable [Facts₀]

def dot_S4096x8_S8x10_S4096x10_1_0_0_1_n_n : DotDims S4096x8 S8x10 S4096x10 where
  lhsContracting := [1]
  rhsContracting := [0]
  lhsNonContracting := [0]
  rhsNonContracting := [1]
  lhsBatch := []
  rhsBatch := []
  wf := dot_S4096x8_S8x10_S4096x10_1_0_0_1_n_n_wf
def dot_S4096x10_S10x10_S4096x10_1_0_0_1_n_n : DotDims S4096x10 S10x10 S4096x10 where
  lhsContracting := [1]
  rhsContracting := [0]
  lhsNonContracting := [0]
  rhsNonContracting := [1]
  lhsBatch := []
  rhsBatch := []
  wf := dot_S4096x10_S10x10_S4096x10_1_0_0_1_n_n_wf
def dot_S4096x10_S10x8_S4096x8_1_0_0_1_n_n : DotDims S4096x10 S10x8 S4096x8 where
  lhsContracting := [1]
  rhsContracting := [0]
  lhsNonContracting := [0]
  rhsNonContracting := [1]
  lhsBatch := []
  rhsBatch := []
  wf := dot_S4096x10_S10x8_S4096x8_1_0_0_1_n_n_wf
def dot_S4096x8_S8x256_S4096x256_1_0_0_1_n_n : DotDims S4096x8 S8x256 S4096x256 where
  lhsContracting := [1]
  rhsContracting := [0]
  lhsNonContracting := [0]
  rhsNonContracting := [1]
  lhsBatch := []
  rhsBatch := []
  wf := dot_S4096x8_S8x256_S4096x256_1_0_0_1_n_n_wf
def dot_S4096x7_S7x256_S4096x256_1_0_0_1_n_n : DotDims S4096x7 S7x256 S4096x256 where
  lhsContracting := [1]
  rhsContracting := [0]
  lhsNonContracting := [0]
  rhsNonContracting := [1]
  lhsBatch := []
  rhsBatch := []
  wf := dot_S4096x7_S7x256_S4096x256_1_0_0_1_n_n_wf

abbrev win0_0 : Pipeline.Window sig grid0 :=
  Pipeline.Window.ofSpec (Memref.whole main_arg0) S4096x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S10x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S8x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_cst) S256x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_cst_0) S256x7.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0) S4096.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S65536x8 : Shape := ⟨2, ![65536, 8]⟩
abbrev S10x8 : Shape := ⟨2, ![10, 8]⟩
abbrev S10 : Shape := ⟨1, ![10]⟩
abbrev S10x10 : Shape := ⟨2, ![10, 10]⟩
abbrev S8x10 : Shape := ⟨2, ![8, 10]⟩
abbrev S8 : Shape := ⟨1, ![8]⟩
abbrev S256x8 : Shape := ⟨2, ![256, 8]⟩
abbrev S256x7 : Shape := ⟨2, ![256, 7]⟩
abbrev S65536x10 : Shape := ⟨2, ![65536, 10]⟩
abbrev S1x10 : Shape := ⟨2, ![1, 10]⟩
abbrev S_ : Shape := ⟨0, ![]⟩
abbrev S1x8 : Shape := ⟨2, ![1, 8]⟩
abbrev S8x256 : Shape := ⟨2, ![8, 256]⟩
abbrev S65536x256 : Shape := ⟨2, ![65536, 256]⟩
abbrev S65536x7 : Shape := ⟨2, ![65536, 7]⟩
abbrev S7x256 : Shape := ⟨2, ![7, 256]⟩
abbrev S65536 : Shape := ⟨1, ![65536]⟩

abbrev nBuf : Space → Nat
  | .hbm => 83
  | .vmem => 0
  | .smem => 0
  | _ => 0

abbrev bufTy : (tb : Table) → Fin (tcTables nBuf tb) → BufTy
  | .hbm, ⟨0, _⟩ => ⟨S65536x8, .f32⟩
  | .hbm, ⟨1, _⟩ => ⟨S65536x8, .f32⟩
  | .hbm, ⟨2, _⟩ => ⟨S10x8, .f32⟩
  | .hbm, ⟨3, _⟩ => ⟨S10, .f32⟩
  | .hbm, ⟨4, _⟩ => ⟨S10x10, .f32⟩
  | .hbm, ⟨5, _⟩ => ⟨S10, .f32⟩
  | .hbm, ⟨6, _⟩ => ⟨S8x10, .f32⟩
  | .hbm, ⟨7, _⟩ => ⟨S8, .f32⟩
  | .hbm, ⟨8, _⟩ => ⟨S256x8, .f32⟩
  | .hbm, ⟨9, _⟩ => ⟨S256x7, .f32⟩
  | .hbm, ⟨10, _⟩ => ⟨S8x10, .f32⟩
  | .hbm, ⟨11, _⟩ => ⟨S65536x10, .f32⟩
  | .hbm, ⟨12, _⟩ => ⟨S1x10, .f32⟩
  | .hbm, ⟨13, _⟩ => ⟨S65536x10, .f32⟩
  | .hbm, ⟨14, _⟩ => ⟨S65536x10, .f32⟩
  | .hbm, ⟨15, _⟩ => ⟨S_, .f32⟩
  | .hbm, ⟨16, _⟩ => ⟨S65536x10, .f32⟩
  | .hbm, ⟨17, _⟩ => ⟨S65536x10, .f32⟩
  | .hbm, ⟨18, _⟩ => ⟨S10x10, .f32⟩
  | .hbm, ⟨19, _⟩ => ⟨S65536x10, .f32⟩
  | .hbm, ⟨20, _⟩ => ⟨S1x10, .f32⟩
  | .hbm, ⟨21, _⟩ => ⟨S65536x10, .f32⟩
  | .hbm, ⟨22, _⟩ => ⟨S65536x10, .f32⟩
  | .hbm, ⟨23, _⟩ => ⟨S_, .f32⟩
  | .hbm, ⟨24, _⟩ => ⟨S65536x10, .f32⟩
  | .hbm, ⟨25, _⟩ => ⟨S65536x10, .f32⟩
  | .hbm, ⟨26, _⟩ => ⟨S10x8, .f32⟩
  | .hbm, ⟨27, _⟩ => ⟨S65536x8, .f32⟩
  | .hbm, ⟨28, _⟩ => ⟨S1x8, .f32⟩
  | .hbm, ⟨29, _⟩ => ⟨S65536x8, .f32⟩
  | .hbm, ⟨30, _⟩ => ⟨S65536x8, .f32⟩
  | .hbm, ⟨31, _⟩ => ⟨S8x10, .f32⟩
  | .hbm, ⟨32, _⟩ => ⟨S65536x10, .f32⟩
  | .hbm, ⟨33, _⟩ => ⟨S1x10, .f32⟩
  | .hbm, ⟨34, _⟩ => ⟨S65536x10, .f32⟩
  | .hbm, ⟨35, _⟩ => ⟨S65536x10, .f32⟩
  | .hbm, ⟨36, _⟩ => ⟨S_, .f32⟩
  | .hbm, ⟨37, _⟩ => ⟨S65536x10, .f32⟩
  | .hbm, ⟨38, _⟩ => ⟨S65536x10, .f32⟩
  | .hbm, ⟨39, _⟩ => ⟨S10x10, .f32⟩
  | .hbm, ⟨40, _⟩ => ⟨S65536x10, .f32⟩
  | .hbm, ⟨41, _⟩ => ⟨S1x10, .f32⟩
  | .hbm, ⟨42, _⟩ => ⟨S65536x10, .f32⟩
  | .hbm, ⟨43, _⟩ => ⟨S65536x10, .f32⟩
  | .hbm, ⟨44, _⟩ => ⟨S_, .f32⟩
  | .hbm, ⟨45, _⟩ => ⟨S65536x10, .f32⟩
  | .hbm, ⟨46, _⟩ => ⟨S65536x10, .f32⟩
  | .hbm, ⟨47, _⟩ => ⟨S10x8, .f32⟩
  | .hbm, ⟨48, _⟩ => ⟨S65536x8, .f32⟩
  | .hbm, ⟨49, _⟩ => ⟨S1x8, .f32⟩
  | .hbm, ⟨50, _⟩ => ⟨S65536x8, .f32⟩
  | .hbm, ⟨51, _⟩ => ⟨S65536x8, .f32⟩
  | .hbm, ⟨52, _⟩ => ⟨S_, .f32⟩
  | .hbm, ⟨53, _⟩ => ⟨S65536x8, .f32⟩
  | .hbm, ⟨54, _⟩ => ⟨S65536x8, .f32⟩
  | .hbm, ⟨55, _⟩ => ⟨S8x256, .f32⟩
  | .hbm, ⟨56, _⟩ => ⟨S65536x256, .f32⟩
  | .hbm, ⟨57, _⟩ => ⟨S65536x7, .f32⟩
  | .hbm, ⟨58, _⟩ => ⟨S65536x7, .f32⟩
  | .hbm, ⟨59, _⟩ => ⟨S65536x7, .f32⟩
  | .hbm, ⟨60, _⟩ => ⟨S7x256, .f32⟩
  | .hbm, ⟨61, _⟩ => ⟨S65536x256, .f32⟩
  | .hbm, ⟨62, _⟩ => ⟨S65536x256, .f32⟩
  | .hbm, ⟨63, _⟩ => ⟨S65536x256, .f32⟩
  | .hbm, ⟨64, _⟩ => ⟨S_, .f32⟩
  | .hbm, ⟨65, _⟩ => ⟨S65536x8, .f32⟩
  | .hbm, ⟨66, _⟩ => ⟨S65536x8, .f32⟩
  | .hbm, ⟨67, _⟩ => ⟨S8x256, .f32⟩
  | .hbm, ⟨68, _⟩ => ⟨S65536x256, .f32⟩
  | .hbm, ⟨69, _⟩ => ⟨S65536x7, .f32⟩
  | .hbm, ⟨70, _⟩ => ⟨S65536x7, .f32⟩
  | .hbm, ⟨71, _⟩ => ⟨S65536x7, .f32⟩
  | .hbm, ⟨72, _⟩ => ⟨S7x256, .f32⟩
  | .hbm, ⟨73, _⟩ => ⟨S65536x256, .f32⟩
  | .hbm, ⟨74, _⟩ => ⟨S65536x256, .f32⟩
  | .hbm, ⟨75, _⟩ => ⟨S65536x256, .f32⟩
  | .hbm, ⟨76, _⟩ => ⟨S65536x256, .f32⟩
  | .hbm, ⟨77, _⟩ => ⟨S65536x256, .f32⟩
  | .hbm, ⟨78, _⟩ => ⟨S_, .f32⟩
  | .hbm, ⟨79, _⟩ => ⟨S65536, .f32⟩
  | .hbm, ⟨80, _⟩ => ⟨S_, .f32⟩
  | .hbm, ⟨81, _⟩ => ⟨S65536, .f32⟩
  | .hbm, ⟨82, _⟩ => ⟨S65536, .f32⟩
  | _, _ => ⟨S65536x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call2_cst : Ref sig .tc := ⟨.hbm, 36, rfl⟩
abbrev main_call2_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call3_cst : Ref sig .tc := ⟨.hbm, 44, rfl⟩
abbrev main_call3_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_1 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_2 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_3 : Ref sig .tc := ⟨.hbm, 78, rfl⟩
abbrev main_v58 : Ref sig .tc := ⟨.hbm, 79, rfl⟩
abbrev main_cst_4 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]

class Facts₀ : Prop where
  transposes_S10x8_S8x10_1_0 : S10x8.Transposes [1, 0] S8x10
  bcast_S10_S1x10_1 : S10.BroadcastsInDim S1x10 (![1] : Fin 1 → Fin S1x10.rank)
  bcast_S1x10_S65536x10_0_1 : S1x10.BroadcastsInDim S65536x10 (![0, 1] : Fin 2 → Fin S65536x10.rank)
  bcast_S_S65536x10 : S_.BroadcastsInDim S65536x10 (![] : Fin 0 → Fin S65536x10.rank)
  transposes_S10x10_S10x10_1_0 : S10x10.Transposes [1, 0] S10x10
  transposes_S8x10_S10x8_1_0 : S8x10.Transposes [1, 0] S10x8
  bcast_S8_S1x8_1 : S8.BroadcastsInDim S1x8 (![1] : Fin 1 → Fin S1x8.rank)
  bcast_S1x8_S65536x8_0_1 : S1x8.BroadcastsInDim S65536x8 (![0, 1] : Fin 2 → Fin S65536x8.rank)
  bcast_S_S65536x8 : S_.BroadcastsInDim S65536x8 (![] : Fin 0 → Fin S65536x8.rank)
  transposes_S256x8_S8x256_1_0 : S256x8.Transposes [1, 0] S8x256
  slices_S65536x8_S65536x7_0_0 : S65536x8.Slices ![0, 0] S65536x7
  slices_S65536x8_S65536x7_0_1 : S65536x8.Slices ![0, 1] S65536x7
  transposes_S256x7_S7x256_1_0 : S256x7.Transposes [1, 0] S7x256
  reducesTo_S65536x256_S65536_d1 : S65536x256.ReducesTo [1] S65536
  h_S_ : 0 < S_.numel
  bcast_S_S65536 : S_.BroadcastsInDim S65536 (![] : Fin 0 → Fin S65536.rank)
  dot_S65536x8_S8x10_S65536x10_1_0_0_1_n_n_wf : DotDims.WF S65536x8 S8x10 S65536x10 [1] [0] [0] [1] [] []
  dot_S65536x10_S10x10_S65536x10_1_0_0_1_n_n_wf : DotDims.WF S65536x10 S10x10 S65536x10 [1] [0] [0] [1] [] []
  dot_S65536x10_S10x8_S65536x8_1_0_0_1_n_n_wf : DotDims.WF S65536x10 S10x8 S65536x8 [1] [0] [0] [1] [] []
  dot_S65536x8_S8x256_S65536x256_1_0_0_1_n_n_wf : DotDims.WF S65536x8 S8x256 S65536x256 [1] [0] [0] [1] [] []
  dot_S65536x7_S7x256_S65536x256_1_0_0_1_n_n_wf : DotDims.WF S65536x7 S7x256 S65536x256 [1] [0] [0] [1] [] []

variable [Facts₀]

def dot_S65536x8_S8x10_S65536x10_1_0_0_1_n_n : DotDims S65536x8 S8x10 S65536x10 where
  lhsContracting := [1]
  rhsContracting := [0]
  lhsNonContracting := [0]
  rhsNonContracting := [1]
  lhsBatch := []
  rhsBatch := []
  wf := dot_S65536x8_S8x10_S65536x10_1_0_0_1_n_n_wf
def dot_S65536x10_S10x10_S65536x10_1_0_0_1_n_n : DotDims S65536x10 S10x10 S65536x10 where
  lhsContracting := [1]
  rhsContracting := [0]
  lhsNonContracting := [0]
  rhsNonContracting := [1]
  lhsBatch := []
  rhsBatch := []
  wf := dot_S65536x10_S10x10_S65536x10_1_0_0_1_n_n_wf
def dot_S65536x10_S10x8_S65536x8_1_0_0_1_n_n : DotDims S65536x10 S10x8 S65536x8 where
  lhsContracting := [1]
  rhsContracting := [0]
  lhsNonContracting := [0]
  rhsNonContracting := [1]
  lhsBatch := []
  rhsBatch := []
  wf := dot_S65536x10_S10x8_S65536x8_1_0_0_1_n_n_wf
def dot_S65536x8_S8x256_S65536x256_1_0_0_1_n_n : DotDims S65536x8 S8x256 S65536x256 where
  lhsContracting := [1]
  rhsContracting := [0]
  lhsNonContracting := [0]
  rhsNonContracting := [1]
  lhsBatch := []
  rhsBatch := []
  wf := dot_S65536x8_S8x256_S65536x256_1_0_0_1_n_n_wf
def dot_S65536x7_S7x256_S65536x256_1_0_0_1_n_n : DotDims S65536x7 S7x256 S65536x256 where
  lhsContracting := [1]
  rhsContracting := [0]
  lhsNonContracting := [0]
  rhsNonContracting := [1]
  lhsBatch := []
  rhsBatch := []
  wf := dot_S65536x7_S7x256_S65536x256_1_0_0_1_n_n_wf

class Facts : Prop extends Facts₀ where

variable [Facts]
-- ==== Proof.Overlap.lean ====
/-
  The overlap of two feature-map states, one batch row at a time.

  A row x of eight reals goes through three affine layers with a rectifier after the first two (8 → 10 → 10 → 8),
  giving eight features f. The diagonal phase of basis state k (k < 256) is
      angle f k = −( ∑ⱼ fⱼ · S(k, j) + ∑ⱼ (π − fⱼ)(π − fⱼ₊₁) · SS(k, j) ),
  with S and SS two fixed tables (256 × 8 and 256 × 7) and π the single-precision word for π, and the overlap of the
  states prepared from rows x₁ and x₂ is
      overlap x₁ x₂ = ( ∑ₖ cos (angle f₁ k − angle f₂ k) ) / 256.
  Everything is stated on the extended reals, where sums are plain finite sums: addition there is commutative and
  associative, so no order of summation and no finiteness of an entry is asked for.

  Besides the definitions, a few array operations are read at an entry here, in the forms both programs use: the cosine,
  the negation and the quotient pointwise; a sum along a row, as the kernel's lane reduction and as the host's reduce from the
  initial value zero; and the two slices that drop the last or the first of eight columns. Each depends on one row of its
  operand alone, which is why a block of rows of the result is the result of the block of rows. (A matrix product's entry as a
  plain sum, and the host's broadcast_in_dim of a bias, are read by two general lemma files beside this one.)
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Overlap

open Idealize.ShloMosaic Idealize.ShloMosaic.ValueIdx

/-- An a × b matrix of extended reals. -/
abbrev Mat (a b : ℕ) := (⟨2, ![a, b]⟩ : Shape).Idx → EReal
/-- A vector of a extended reals. -/
abbrev Vct (a : ℕ) := (⟨1, ![a]⟩ : Shape).Idx → EReal

/-- The single-precision word for π, as the extended real it denotes. -/
def pi32 : EReal := Ideal.ofBits .f32 0x40490FDB#32
/-- The single-precision word for 256. -/
def dim32 : EReal := Ideal.ofBits .f32 0x43800000#32

/-- One affine layer at a row: entry j of W·x + b. -/
def affine {k p : ℕ} (W : Mat p k) (b : Vct p) (x : Fin k → EReal) (j : Fin p) : EReal :=
  (∑ l : Fin k, x l * W (ix2 j l)) + b (ix1 j)

/-- The eight features of a row: affine, rectifier, affine, rectifier, affine. -/
def features (W1 : Mat 10 8) (b1 : Vct 10) (W2 : Mat 10 10) (b2 : Vct 10) (W3 : Mat 8 10) (b3 : Vct 8)
    (x : Fin 8 → EReal) : Fin 8 → EReal :=
  affine W3 b3 fun l => max (affine W2 b2 (fun l' => max (affine W1 b1 x l') 0) l) 0

/-- The phase of basis state k for features f. -/
def angle (S : Mat 256 8) (SS : Mat 256 7) (f : Fin 8 → EReal) (k : Fin 256) : EReal :=
  -((∑ j : Fin 8, f j * S (ix2 k j)) + ∑ j : Fin 7, ((pi32 - f j.castSucc) * (pi32 - f j.succ)) * SS (ix2 k j))

/-- The overlap of the states prepared from two rows. -/
def overlap (W1 : Mat 10 8) (b1 : Vct 10) (W2 : Mat 10 10) (b2 : Vct 10) (W3 : Mat 8 10) (b3 : Vct 8)
    (S : Mat 256 8) (SS : Mat 256 7) (x1 x2 : Fin 8 → EReal) : EReal :=
  Ideal.div (∑ k : Fin 256, Ideal.cos (angle S SS (features W1 b1 W2 b2 W3 b3 x1) k
    - angle S SS (features W1 b1 W2 b2 W3 b3 x2) k)) dim32

/-- The overlaps of all n pairs of rows of two batches: entry i is the overlap of row i of each. -/
def overlaps {n : ℕ} (X1 X2 : Mat n 8) (W1 : Mat 10 8) (b1 : Vct 10) (W2 : Mat 10 10) (b2 : Vct 10) (W3 : Mat 8 10) (b3 : Vct 8)
    (S : Mat 256 8) (SS : Mat 256 7) : Vct n := fun i =>
  overlap W1 b1 W2 b2 W3 b3 S SS (fun l => X1 (ix2 (⟨(i 0).val, (i 0).isLt⟩ : Fin n) l)) (fun l => X2 (ix2 (⟨(i 0).val, (i 0).isLt⟩ : Fin n) l))

/-- At entry r it is the overlap of row r. -/
theorem overlaps_apply {n : ℕ} (X1 X2 : Mat n 8) (W1 : Mat 10 8) (b1 : Vct 10) (W2 : Mat 10 10) (b2 : Vct 10) (W3 : Mat 8 10) (b3 : Vct 8)
    (S : Mat 256 8) (SS : Mat 256 7) (r : Fin n) :
    overlaps X1 X2 W1 b1 W2 b2 W3 b3 S SS (ix1 r)
      = overlap W1 b1 W2 b2 W3 b3 S SS (fun l => X1 (ix2 r l)) (fun l => X2 (ix2 r l)) := rfl

/-! ## Pointwise operations read at an index -/

variable {s : Shape} {φ : FTy}

theorem cos_apply (a : FVec Ideal s φ) (i : s.Idx) : cos a i = Ideal.cos (a i) := rfl
theorem hostCos_apply (a : FVec Ideal s φ) (i : s.Idx) : Host.cos a i = Ideal.cos (a i) := rfl
theorem hostNegf_apply (a : FVec Ideal s φ) (i : s.Idx) : Host.negf a i = -(a i) := rfl
theorem hostDivf_apply (a b : FVec Ideal s φ) (i : s.Idx) : Host.divf a b i = Ideal.div (a i) (b i) := rfl

/-! ## A row sum, in both spellings -/

/-- The index of an n × c matrix over row r with column k inserted is (r, k). -/
theorem lift_row {n c : ℕ} (h : (⟨2, ![n, c]⟩ : Shape).Reduces [1] ⟨1, ![n]⟩) (r : Fin n) (k : Fin c) :
    h.lift (ix1 r) k = ix2 r k := by
  funext ax
  apply Fin.ext
  match ax with
  | ⟨0, _⟩ => rfl
  | ⟨1, _⟩ => rfl

/-- A lane reduction over the columns, read at row r, is the sum of the row. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ k : Fin c, src (ix2 r k) := by
  rw [Ideal.multiReduction_add_single]
  exact Finset.sum_congr rfl fun k _ => congrArg src (lift_row h r k)

/-- The host's sum over the columns from the initial value zero, read at row r, is the sum of the row. -/
theorem hostRowSum_apply {n c : ℕ} (x : FVec Ideal ⟨2, ![n, c]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (r : Fin n) :
    Host.reduceAdd x (constant (F := Ideal) ⟨0, ![]⟩ .f32 0x00000000#32) h' hu (ix1 r) = ∑ k : Fin c, x (ix2 r k) := by
  show Ideal.hostReduceAdd h' x (Ideal.ofBits .f32 0x00000000#32) (ix1 r) = _
  rw [Ideal.hostReduceAdd_single h' h, Ideal.ofBits_zero_f32, zero_add]
  exact Finset.sum_congr rfl fun k _ => congrArg x (lift_row h r k)

/-! ## The two slices of eight columns to seven -/

/-- Dropping the last column: entry (a, j) is the source's (a, j). -/
theorem dropLast_apply {α : Type} {n : ℕ} (X : (⟨2, ![n, 8]⟩ : Shape).Idx → α)
    (h : (⟨2, ![n, 8]⟩ : Shape).Slices ![0, 0] ⟨2, ![n, 7]⟩) (a : Fin n) (j : Fin 7) :
    extractStridedSlice ⟨2, ![n, 7]⟩ ![0, 0] X h (ix2 a j) = X (ix2 a j.castSucc) :=
  slice2_axis1_apply 0 X h a j j.castSucc (by simp)

/-- Dropping the first column: entry (a, j) is the source's (a, j + 1). -/
theorem dropFirst_apply {α : Type} {n : ℕ} (X : (⟨2, ![n, 8]⟩ : Shape).Idx → α)
    (h : (⟨2, ![n, 8]⟩ : Shape).Slices ![0, 1] ⟨2, ![n, 7]⟩) (a : Fin n) (j : Fin 7) :
    extractStridedSlice ⟨2, ![n, 7]⟩ ![0, 1] X h (ix2 a j) = X (ix2 a j.succ) :=
  slice2_axis1_apply 1 X h a j j.succ (by simp [Nat.add_comm])

end Cert.Overlap

end
-- ==== Proof.LibSideBySide.lean ====
/-
  Two matrix products with a common right factor, laid side by side.

  Over the extended reals, entry (a, b) of the product of an r×k matrix A with a k×n matrix B is the sum over the
  contracted coordinate c of A(a, c) · B(c, b). No rounding and no order of summation is left in it: addition on the
  extended reals is commutative and associative, so the sum is a plain finite sum and nothing here asks that an entry be
  finite.

  A kernel forms such a product on the matrix unit, accumulating into a zero block; the host forms it by a
  dot_general with no accumulator. At the ideal values both are that sum (`kernelProduct_apply`, `hostProduct_apply`),
  whatever float formats the factors were narrowed to on the way, a change of format being the identity there.

  `sideBySide A₁ A₂ B` is the r×w array whose columns 0 … n−1 hold A₁·B and whose columns n … 2n−1 hold A₂·B: what
  concatenating the two products along the column axis gives (`concatenate_products`), and equally what writing one product
  into the left half of a block and the other into the right half gives. Row p of either product depends on row p of its left
  factor alone, so a block of rows of the side-by-side array is the side-by-side array of the blocks of rows (`sideBySide_rows`).
-/
import Idealize.ShloMosaic.Lib.StackMember

noncomputable section

namespace SideBySide

open Idealize.ShloMosaic Idealize.ShloMosaic.ValueIdx

variable {r k n w : Nat}

/-- Entry (a, b) of the product A·B of an r×k and a k×n matrix of extended reals. -/
def entry (A : (⟨2, ![r, k]⟩ : Shape).Idx → EReal) (B : (⟨2, ![k, n]⟩ : Shape).Idx → EReal) (a : Fin r) (b : Fin n) : EReal :=
  ∑ c : Fin k, A (ix2 a c) * B (ix2 c b)

/-- The host's product of an r×k by a k×n matrix (rows by columns, one contracted axis), read at (a, b), is that entry. The
    dimension numbers are given as a record equal to the plain one, so that a program's own record fits. -/
theorem hostProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    Host.dotGeneral d prec A B (ix2 a b) = entry A B a b := by
  subst hd
  exact StackMember.dotGeneral_plain_apply prec A B a b

/-- The matrix unit's product accumulated into a zero block, read at (a, b), is the same entry: the zero contributes
    nothing to the sum. -/
theorem kernelProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    matmul d prec A B (constant (F := Ideal) ⟨2, ![r, n]⟩ .f32 0x00000000#32) (ix2 a b) = entry A B a b := by
  rw [matmul_zero_eq_dotGeneral]
  exact hostProduct_apply d hd prec A B a b

/-- The r×w array with A₁·B in columns 0 … n−1 and A₂·B in columns n … 2n−1 (zero in any column past 2n−1, of which an
    array of width 2n has none). -/
def sideBySide (A₁ A₂ : (⟨2, ![r, k]⟩ : Shape).Idx → EReal) (B : (⟨2, ![k, n]⟩ : Shape).Idx → EReal) :
    (⟨2, ![r, w]⟩ : Shape).Idx → EReal := fun j =>
  if h : (j 1).val < n then entry A₁ B (j 0) ⟨(j 1).val, h⟩
  else if h' : (j 1).val - n < n then entry A₂ B (j 0) ⟨(j 1).val - n, h'⟩ else 0

/-- A column of the left half reads the first product. -/
theorem sideBySide_left (A₁ A₂ : (⟨2, ![r, k]⟩ : Shape).Idx → EReal) (B : (⟨2, ![k, n]⟩ : Shape).Idx → EReal)
    (a : Fin r) (b : Fin w) (hb : b.val < n) :
    sideBySide (w := w) A₁ A₂ B (ix2 a b) = entry A₁ B a ⟨b.val, hb⟩ := by
  show (if h : b.val < n then entry A₁ B a ⟨b.val, h⟩
    else if h' : b.val - n < n then entry A₂ B a ⟨b.val - n, h'⟩ else 0) = _
  rw [dif_pos hb]

/-- A column of the right half reads the second product, n columns to the left. -/
theorem sideBySide_right (A₁ A₂ : (⟨2, ![r, k]⟩ : Shape).Idx → EReal) (B : (⟨2, ![k, n]⟩ : Shape).Idx → EReal)
    (a : Fin r) (b : Fin w) (hb : n ≤ b.val) (hb' : b.val - n < n) :
    sideBySide (w := w) A₁ A₂ B (ix2 a b) = entry A₂ B a ⟨b.val - n, hb'⟩ := by
  show (if h : b.val < n then entry A₁ B a ⟨b.val, h⟩
    else if h' : b.val - n < n then entry A₂ B a ⟨b.val - n, h'⟩ else 0) = _
  rw [dif_neg (Nat.not_lt.2 hb), dif_pos hb']

/-- A column past both halves reads zero. -/
theorem sideBySide_beyond (A₁ A₂ : (⟨2, ![r, k]⟩ : Shape).Idx → EReal) (B : (⟨2, ![k, n]⟩ : Shape).Idx → EReal)
    (a : Fin r) (b : Fin w) (hb : ¬ b.val < n) (hb' : ¬ b.val - n < n) :
    sideBySide (w := w) A₁ A₂ B (ix2 a b) = 0 := by
  show (if h : b.val < n then entry A₁ B a ⟨b.val, h⟩
    else if h' : b.val - n < n then entry A₂ B a ⟨b.val - n, h'⟩ else 0) = _
  rw [dif_neg hb, dif_neg hb']

/-- A block of rows of the side-by-side array is the side-by-side array of that block of rows of each left factor: row p
    of a product depends on row p of its left factor only. Here a₁ and a₂ are rows off … off + r − 1 of A₁ and A₂. -/
theorem sideBySide_rows {R : Nat} (A₁ A₂ : (⟨2, ![R, k]⟩ : Shape).Idx → EReal) (B : (⟨2, ![k, n]⟩ : Shape).Idx → EReal)
    (a₁ a₂ : (⟨2, ![r, k]⟩ : Shape).Idx → EReal) (off : Nat) (hoff : off + r ≤ R)
    (h₁ : ∀ (p : Fin r) (c : Fin k), a₁ (ix2 p c) = A₁ (ix2 ⟨off + p.val, by have := p.isLt; omega⟩ c))
    (h₂ : ∀ (p : Fin r) (c : Fin k), a₂ (ix2 p c) = A₂ (ix2 ⟨off + p.val, by have := p.isLt; omega⟩ c))
    (p : Fin r) (b : Fin w) :
    sideBySide (w := w) a₁ a₂ B (ix2 p b)
      = sideBySide (w := w) A₁ A₂ B (ix2 ⟨off + p.val, by have := p.isLt; omega⟩ b) := by
  have e₁ : ∀ q : Fin n, entry a₁ B p q = entry A₁ B ⟨off + p.val, by have := p.isLt; omega⟩ q := fun q => by
    unfold entry; exact Finset.sum_congr rfl fun c _ => by rw [h₁]
  have e₂ : ∀ q : Fin n, entry a₂ B p q = entry A₂ B ⟨off + p.val, by have := p.isLt; omega⟩ q := fun q => by
    unfold entry; exact Finset.sum_congr rfl fun c _ => by rw [h₂]
  by_cases hb : b.val < n
  · rw [sideBySide_left _ _ _ _ _ hb, sideBySide_left _ _ _ _ _ hb, e₁]
  · by_cases hb' : b.val - n < n
    · rw [sideBySide_right _ _ _ _ _ (Nat.not_lt.1 hb) hb', sideBySide_right _ _ _ _ _ (Nat.not_lt.1 hb) hb', e₂]
    · rw [sideBySide_beyond _ _ _ _ _ hb hb', sideBySide_beyond _ _ _ _ _ hb hb']

/-- The host's two products concatenated along the column axis are the two products side by side. -/
theorem concatenate_products {φ₁ φ₂ : FTy} (d : DotDims ⟨2, ![r, k]⟩ ⟨2, ![k, n]⟩ ⟨2, ![r, n]⟩) (hd : d = DotDims.plain r k n)
    (prec : Option ContractPrecision) (A₁ A₂ : FVec Ideal ⟨2, ![r, k]⟩ φ₁) (B : FVec Ideal ⟨2, ![k, n]⟩ φ₂)
    (hw : w = n + n)
    (h : Shape.Concatenates [(⟨2, ![r, n]⟩ : Shape), (⟨2, ![r, n]⟩ : Shape)] (⟨2, ![r, w]⟩ : Shape) 1) :
    concatenate (⟨2, ![r, w]⟩ : Shape) 1
        [⟨(⟨2, ![r, n]⟩ : Shape), Host.dotGeneral d prec A₁ B⟩, ⟨(⟨2, ![r, n]⟩ : Shape), Host.dotGeneral d prec A₂ B⟩] h
      = sideBySide (w := w) A₁ A₂ B := by
  funext j
  obtain ⟨a, b, rfl⟩ : ∃ (a : Fin r) (b : Fin w), j = ix2 a b := ⟨j 0, j 1, eq_ix2 j⟩
  by_cases hb : b.val < n
  · rw [sideBySide_left A₁ A₂ B a b hb, ← hostProduct_apply d hd prec A₁ B a ⟨b.val, hb⟩]
    exact concatenate_pair_apply_left 1 _ _ h (ix2 a b) rfl (ix2 a ⟨b.val, hb⟩)
      (fun q => by match q with | ⟨0, _⟩ => rfl | ⟨1, _⟩ => rfl)
  · have hb1 : n ≤ b.val := Nat.not_lt.1 hb
    have hb2 : b.val - n < n := by have := b.isLt; omega
    rw [sideBySide_right A₁ A₂ B a b hb1 hb2, ← hostProduct_apply d hd prec A₂ B a ⟨b.val - n, hb2⟩]
    exact concatenate_pair_apply_right 1 _ _ h (ix2 a b) rfl rfl (ix2 a ⟨b.val - n, hb2⟩)
      (fun q hq => by
        match q with
        | ⟨0, _⟩ => rfl
        | ⟨1, _⟩ => exact absurd rfl hq)
      (by show (b.val - n) + n = b.val; omega)

end SideBySide

end
-- ==== Proof.KernelRow.lean ====
/-
  What the kernel's body computes for one row of its block of 4096 rows.

  The body takes the block of each input batch through the three affine layers (a rectifier after the first two), forms
  for every row the phase of each of the 256 basis states from the features f and the shifted products (π − fⱼ)(π − fⱼ₊₁),
  and stores, for every row, the sum over the basis states of the cosine of the two phases' difference, divided by 256.
  Every operation on the way acts row by row: a matrix product's row r needs row r of its left factor only, a bias is
  the same on every row, and the reduction runs along a row. So entry r of the stored vector is the overlap of row r of
  the first block with row r of the second, whatever the other 4095 rows hold. The negation is spelt 0 − x in the body,
  which on the extended reals is −x.
-/
import proofs.«142420_j7756710937246_1_alg».proof.Proof.Gen.KernelIdeal.Skeleton
import proofs.«142420_j7756710937246_1_alg».proof.Proof.Overlap
import proofs.«142420_j7756710937246_1_alg».proof.Proof.LibSideBySide

noncomputable section

namespace Cert.KernelIdeal.BlockRow

open Cert.KernelIdeal Cert.KernelIdeal.Gen Idealize.ShloMosaic Idealize.ShloMosaic.ValueIdx Cert.Overlap

/-- Entry r of the vector the body stores is the overlap of row r of the two input blocks. -/
theorem payload_row (w1 : Vec Ideal S10x8 .f32) (b1 : Vec Ideal S10 .f32) (w2 : Vec Ideal S10x10 .f32) (b2 : Vec Ideal S10 .f32)
    (w3 : Vec Ideal S8x10 .f32) (b3 : Vec Ideal S8 .f32) (S : Vec Ideal S256x8 .f32) (SS : Vec Ideal S256x7 .f32)
    (x1 x2 : Vec Ideal S4096x8 .f32) (r : Fin 4096) :
    k0_pay1 w2 b2 w3 b3 S SS (k0_pay2 w1 b1 w2 b2 w3 b3 x1) (k0_pay3 w1 b1 x2) (k0_pay4 (F := Ideal)) (ix1 r)
      = overlap w1 b1 w2 b2 w3 b3 S SS (fun l => x1 (ix2 r l)) (fun l => x2 (ix2 r l)) := by
  unfold k0_pay1 k0_pay2 k0_pay3 k0_pay4
  simp only [divf_apply, broadcast_apply, rowSum_apply (n := 4096) (c := 256) _ reduces_S4096x256_S4096 (.inl rfl) rfl,
    cos_apply, subf_apply, addf_apply, mulf_apply, maximumf_apply,
    SideBySide.kernelProduct_apply dot_S4096x8_S8x256_S4096x256_1_0_0_1_n_n rfl none,
    SideBySide.kernelProduct_apply dot_S4096x7_S7x256_S4096x256_1_0_0_1_n_n rfl none,
    SideBySide.kernelProduct_apply dot_S4096x8_S8x10_S4096x10_1_0_0_1_n_n rfl none,
    SideBySide.kernelProduct_apply dot_S4096x10_S10x10_S4096x10_1_0_0_1_n_n rfl none,
    SideBySide.kernelProduct_apply dot_S4096x10_S10x8_S4096x8_1_0_0_1_n_n rfl none,
    transpose_ix2_apply (a := 256) (b := 8), transpose_ix2_apply (a := 256) (b := 7),
    transpose_ix2_apply (a := 10) (b := 8), transpose_ix2_apply (a := 10) (b := 10), transpose_ix2_apply (a := 8) (b := 10),
    broadcastTo_1b_ab_apply (a := 4096) (b := 10), broadcastTo_1b_ab_apply (a := 4096) (b := 8),
    shapeCast_a_1a_apply (a := 10), shapeCast_a_1a_apply (a := 8),
    dropLast_apply (n := 4096), dropFirst_apply (n := 4096),
    SideBySide.entry, Ideal.ofBits_def, Ideal.ofBits_zero_f32, zero_sub]
  unfold overlap angle features affine pi32 dim32
  rfl

end Cert.KernelIdeal.BlockRow

end
-- ==== Proof.KernelArray.lean ====
/-
  From the blocks to the whole array of overlaps.

  The kernel runs at 16 grid points; at point t the two input windows hold rows 4096·t … 4096·t + 4095 of the two
  batches, every other window holds its whole (small) array, and the output window's block is entries 4096·t … 4096·t + 4095
  of the result. Entry r of what point t writes back is the overlap of row r of the two blocks, that is of row 4096·t + r of
  the two batches: the block is the restriction of ONE function of the argument arrays, entry i ↦ overlap of row i. The
  sixteen blocks tile the 65536 entries (entry i lies in the block of point i / 4096), so after the run the result array is
  that function, with the two fixed tables as the host operations before the launch left them.
-/
import proofs.«142420_j7756710937246_1_alg».proof.Proof.Gen.KernelIdeal.Value
import proofs.«142420_j7756710937246_1_alg».proof.Proof.KernelRow
import Idealize.ShloMosaic.Lib.Pipeline.Value
import Idealize.ShloMosaic.Lib.StableHlo.Run

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.Overlap
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## The two tables as the launch finds them -/

/-- The fixed 256 × 8 table (the program's first literal table; its entries are never opened here). -/
def table8 : FVec Ideal S256x8 .f32 := fun i => FloatOps.ofBits .f32 (lit0 (S256x8.rowMajor i))
/-- The fixed 256 × 7 table (the program's second literal table). -/
def table7 : FVec Ideal S256x7 .f32 := fun i => FloatOps.ofBits .f32 (lit1 (S256x7.rowMajor i))

open Idealize.ShloMosaic.StableHlo in
/-- The first host operation before the launch writes the 256 × 8 table, and nothing after it touches that buffer. -/
theorem V_table8 (c : Dev nD) : (V m c main_cst : S256x8.Idx → EReal) = table8 := by
  dsimp only [V, hostOps0]; after_results; rfl

open Idealize.ShloMosaic.StableHlo in
/-- The second writes the 256 × 7 table. -/
theorem V_table7 (c : Dev nD) : (V m c main_cst_0 : S256x7.Idx → EReal) = table7 := by
  dsimp only [V, hostOps0]; after_results; rfl

/-! ## Where each window's block sits -/

/-- The printed index maps of the eight small windows, decided over the sixteen points: block zero throughout. -/
theorem index_fixed : ∀ t : Fin cfg0.N,
    win0_2.index t = (fun _ => 0) ∧ win0_3.index t = (fun _ => 0) ∧ win0_4.index t = (fun _ => 0)
    ∧ win0_5.index t = (fun _ => 0) ∧ win0_6.index t = (fun _ => 0) ∧ win0_7.index t = (fun _ => 0)
    ∧ win0_8.index t = (fun _ => 0) ∧ win0_9.index t = (fun _ => 0) :=
  (by decide +kernel : ∀ t : Fin grid0.N, _)

/-- The output and the two batches move with the point along the rows. -/
theorem index_moving : ∀ t : Fin cfg0.N,
    win0_10.index t (0 : Fin 1) = t.val
    ∧ win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- A window at block zero whose block is its whole array holds that array: the first weight matrix. -/
theorem block2 (c : Dev nD) (t : Fin cfg0.N) : (iblk m c 2 t : Vec Ideal S10x8 .f32) = V m c main_arg2 := by
  have hz' : (fun a => win0_2.index t a * main_arg2.ty.shape.size a) = fun _ => 0 :=
    funext fun a => by rw [(index_fixed t).1]; exact Nat.zero_mul _
  exact Memref.read_access_unit_zero (Elt Ideal) main_arg2 hz' (fun a => by rw [congrFun hz' a]; simp) (V m c main_arg2)

/-- The first bias. -/
theorem block3 (c : Dev nD) (t : Fin cfg0.N) : (iblk m c 3 t : Vec Ideal S10 .f32) = V m c main_arg3 := by
  have hz' : (fun a => win0_3.index t a * main_arg3.ty.shape.size a) = fun _ => 0 :=
    funext fun a => by rw [(index_fixed t).2.1]; exact Nat.zero_mul _
  exact Memref.read_access_unit_zero (Elt Ideal) main_arg3 hz' (fun a => by rw [congrFun hz' a]; simp) (V m c main_arg3)

/-- The second weight matrix. -/
theorem block4 (c : Dev nD) (t : Fin cfg0.N) : (iblk m c 4 t : Vec Ideal S10x10 .f32) = V m c main_arg4 := by
  have hz' : (fun a => win0_4.index t a * main_arg4.ty.shape.size a) = fun _ => 0 :=
    funext fun a => by rw [(index_fixed t).2.2.1]; exact Nat.zero_mul _
  exact Memref.read_access_unit_zero (Elt Ideal) main_arg4 hz' (fun a => by rw [congrFun hz' a]; simp) (V m c main_arg4)

/-- The second bias. -/
theorem block5 (c : Dev nD) (t : Fin cfg0.N) : (iblk m c 5 t : Vec Ideal S10 .f32) = V m c main_arg5 := by
  have hz' : (fun a => win0_5.index t a * main_arg5.ty.shape.size a) = fun _ => 0 :=
    funext fun a => by rw [(index_fixed t).2.2.2.1]; exact Nat.zero_mul _
  exact Memref.read_access_unit_zero (Elt Ideal) main_arg5 hz' (fun a => by rw [congrFun hz' a]; simp) (V m c main_arg5)

/-- The third weight matrix. -/
theorem block6 (c : Dev nD) (t : Fin cfg0.N) : (iblk m c 6 t : Vec Ideal S8x10 .f32) = V m c main_arg6 := by
  have hz' : (fun a => win0_6.index t a * main_arg6.ty.shape.size a) = fun _ => 0 :=
    funext fun a => by rw [(index_fixed t).2.2.2.2.1]; exact Nat.zero_mul _
  exact Memref.read_access_unit_zero (Elt Ideal) main_arg6 hz' (fun a => by rw [congrFun hz' a]; simp) (V m c main_arg6)

/-- The third bias. -/
theorem block7 (c : Dev nD) (t : Fin cfg0.N) : (iblk m c 7 t : Vec Ideal S8 .f32) = V m c main_arg7 := by
  have hz' : (fun a => win0_7.index t a * main_arg7.ty.shape.size a) = fun _ => 0 :=
    funext fun a => by rw [(index_fixed t).2.2.2.2.2.1]; exact Nat.zero_mul _
  exact Memref.read_access_unit_zero (Elt Ideal) main_arg7 hz' (fun a => by rw [congrFun hz' a]; simp) (V m c main_arg7)

/-- The 256 × 8 table. -/
theorem block8 (c : Dev nD) (t : Fin cfg0.N) : (iblk m c 8 t : Vec Ideal S256x8 .f32) = V m c main_cst := by
  have hz' : (fun a => win0_8.index t a * main_cst.ty.shape.size a) = fun _ => 0 :=
    funext fun a => by rw [(index_fixed t).2.2.2.2.2.2.1]; exact Nat.zero_mul _
  exact Memref.read_access_unit_zero (Elt Ideal) main_cst hz' (fun a => by rw [congrFun hz' a]; simp) (V m c main_cst)

/-- The 256 × 7 table. -/
theorem block9 (c : Dev nD) (t : Fin cfg0.N) : (iblk m c 9 t : Vec Ideal S256x7 .f32) = V m c main_cst_0 := by
  have hz' : (fun a => win0_9.index t a * main_cst_0.ty.shape.size a) = fun _ => 0 :=
    funext fun a => by rw [(index_fixed t).2.2.2.2.2.2.2]; exact Nat.zero_mul _
  exact Memref.read_access_unit_zero (Elt Ideal) main_cst_0 hz' (fun a => by rw [congrFun hz' a]; simp) (V m c main_cst_0)

/-- Row r of the first batch's block at point t is row 4096 · t + r of the batch. -/
theorem block0_row (c : Dev nD) (t : Fin cfg0.N) (r : Fin 4096) (l : Fin 8) (k : Fin 65536) (hk : k.val = t.val * 4096 + r.val) :
    (iblk m c 0 t : Vec Ideal S4096x8 .f32) (ix2 r l) = V m c main_arg0 (ix2 k l) := by
  unfold iblk
  rw [View.read_apply]
  show V m c main_arg0 _ = V m c main_arg0 (ix2 k l)
  congr 1
  funext a
  apply Fin.ext
  match a with
  | ⟨0, _⟩ => show win0_0.index t (0 : Fin 2) * 4096 + 1 * r.val = k.val; rw [(index_moving t).2.1, hk]; omega
  | ⟨1, _⟩ => show win0_0.index t (1 : Fin 2) * 8 + 1 * l.val = l.val; rw [(index_moving t).2.2.1]; omega

/-- The same for the second batch. -/
theorem block1_row (c : Dev nD) (t : Fin cfg0.N) (r : Fin 4096) (l : Fin 8) (k : Fin 65536) (hk : k.val = t.val * 4096 + r.val) :
    (iblk m c 1 t : Vec Ideal S4096x8 .f32) (ix2 r l) = V m c main_arg1 (ix2 k l) := by
  unfold iblk
  rw [View.read_apply]
  show V m c main_arg1 _ = V m c main_arg1 (ix2 k l)
  congr 1
  funext a
  apply Fin.ext
  match a with
  | ⟨0, _⟩ => show win0_1.index t (0 : Fin 2) * 4096 + 1 * r.val = k.val; rw [(index_moving t).2.2.2.1, hk]; omega
  | ⟨1, _⟩ => show win0_1.index t (1 : Fin 2) * 8 + 1 * l.val = l.val; rw [(index_moving t).2.2.2.2]; omega

/-! ## What a point writes back, and the array after the run -/

/-- The result as one function of the arrays the launch finds: entry i is the overlap of row i of the two batches. -/
abbrev wholeOf (c : Dev nD) : FVec Ideal S65536 .f32 :=
  overlaps (V m c main_arg0) (V m c main_arg1) (V m c main_arg2) (V m c main_arg3) (V m c main_arg4) (V m c main_arg5)
    (V m c main_arg6) (V m c main_arg7) (V m c main_cst) (V m c main_cst_0)

set_option maxHeartbeats 1000000 in
/-- What point t writes back is block t of that function: entry r of it is the overlap of row r of the two blocks, which
    are rows 4096 · t + r of the two batches. -/
theorem flushed_eq (c : Dev nD) (t : Fin cfg0.N) :
    (dats m 0 c).flushed 10 t = ((cfg0.win 10).blk t).view.read (Elt Ideal) (wholeOf m c) := by
  rw [flushed10]
  unfold out0_10
  rw [View.canon_unit_zero hz1]
  simp only [View.ld_unit_zero (S := S10x8) hz2, View.ld_unit_zero (S := S10) hz1, View.ld_unit_zero (S := S10x10) hz2,
    View.ld_unit_zero (S := S8x10) hz2, View.ld_unit_zero (S := S8) hz1, View.ld_unit_zero (S := S256x8) hz2,
    View.ld_unit_zero (S := S256x7) hz2, View.ld_unit_zero (S := S4096x8) hz2]
  funext j
  obtain ⟨r, rfl⟩ : ∃ r : Fin 4096, j = ix1 r := ⟨j 0, eq_ix1 j⟩
  have hr : r.val < 4096 := r.isLt
  have ht : t.val < 16 := by have := t.isLt; have hN : cfg0.N = 16 := N_0; omega
  have hk : t.val * 4096 + r.val < 65536 := by omega
  have e : ((cfg0.win 10).blk t).view.emb (ix1 r) = ix1 (⟨t.val * 4096 + r.val, hk⟩ : Fin 65536) := by
    funext a
    apply Fin.ext
    match a with
    | ⟨0, _⟩ => show win0_10.index t (0 : Fin 1) * 4096 + 1 * r.val = t.val * 4096 + r.val; rw [(index_moving t).1]; omega
  have h0 : (fun l : Fin 8 => (iblk m c 0 t : Vec Ideal S4096x8 .f32) (ix2 r l))
      = fun l => V m c main_arg0 (ix2 (⟨t.val * 4096 + r.val, hk⟩ : Fin 65536) l) :=
    funext fun l => block0_row m c t r l _ rfl
  have h1 : (fun l : Fin 8 => (iblk m c 1 t : Vec Ideal S4096x8 .f32) (ix2 r l))
      = fun l => V m c main_arg1 (ix2 (⟨t.val * 4096 + r.val, hk⟩ : Fin 65536) l) :=
    funext fun l => block1_row m c t r l _ rfl
  show k0_pay1 (iblk m c 4 t) (iblk m c 5 t) (iblk m c 6 t) (iblk m c 7 t) (iblk m c 8 t) (iblk m c 9 t)
      (k0_pay2 (iblk m c 2 t) (iblk m c 3 t) (iblk m c 4 t) (iblk m c 5 t) (iblk m c 6 t) (iblk m c 7 t) (iblk m c 0 t))
      (k0_pay3 (iblk m c 2 t) (iblk m c 3 t) (iblk m c 1 t)) k0_pay4 (ix1 r)
    = wholeOf m c (((cfg0.win 10).blk t).view.emb (ix1 r))
  refine (BlockRow.payload_row _ _ _ _ _ _ _ _ _ _ r).trans ?_
  rw [e]
  unfold wholeOf
  rw [overlaps_apply, block2, block3, block4, block5, block6, block7, block8, block9]
  exact congrArg₂ (overlap (V m c main_arg2) (V m c main_arg3) (V m c main_arg4) (V m c main_arg5) (V m c main_arg6)
    (V m c main_arg7) (V m c main_cst) (V m c main_cst_0)) h0 h1

/-- An entry of the result is in point t's block iff it lies in the block's range of entries. -/
theorem mem_block (t : Fin cfg0.N) (i : S65536.Idx) :
    i ∈ ((cfg0.win 10).blk t).view.set ↔ ∀ a : Fin 1, win0_10.index t a * S4096.size a ≤ (i a).val
      ∧ (i a).val < win0_10.index t a * S4096.size a + S4096.size a := by
  show i ∈ ((View.whole main_v0).slice (win0_10.rect t)).set ↔ _
  rw [View.set_slice_whole, Rect.mem_set_unit]
  exact Iff.rfl

/-- The sixteen blocks tile the result, so after the run the result array is the one function. -/
theorem array_after (c : Dev nD) : (dats m 0 c).arrAt 10 cfg0.N = wholeOf m c :=
  (dats m 0 c).arrAt_eq_of_cover 10 (wholeOf m c) (fun t _ => flushed_eq m c t) fun i => by
    have hi : (i 0).val < 65536 := (i 0).isLt
    have hq : (i 0).val / 4096 < cfg0.N := by have hN : cfg0.N = 16 := N_0; omega
    refine ⟨⟨(i 0).val / 4096, hq⟩, flush0_10 _, ?_⟩
    rw [mem_block]
    intro a
    match a with
    | ⟨0, _⟩ =>
      show win0_10.index ⟨(i 0).val / 4096, hq⟩ (0 : Fin 1) * 4096 ≤ (i 0).val
        ∧ (i 0).val < win0_10.index ⟨(i 0).val / 4096, hq⟩ (0 : Fin 1) * 4096 + 4096
      rw [(index_moving ⟨(i 0).val / 4096, hq⟩).1]
      show (i 0).val / 4096 * 4096 ≤ (i 0).val ∧ (i 0).val < (i 0).val / 4096 * 4096 + 4096
      omega

/-- The result in terms of the argument arrays as launched and the two tables. -/
theorem wholeOf_eq (c : Dev nD) : wholeOf m c
    = overlaps (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) table8 table7 := by
  unfold wholeOf
  rw [V_main_arg0, V_main_arg1, V_main_arg2, V_main_arg3, V_main_arg4, V_main_arg5, V_main_arg6, V_main_arg7,
    V_table8, V_table7]

/-- Every weakly fair execution of the kernel's program terminates with the result array at the overlaps of the rows of
    the two batches and the arguments unchanged. -/
theorem run : θ_run defs (onTc (τ := τ) (main (F := Ideal))) ⟨m, fun _ => 0, ρ⟩ fun r => ∀ c : Dev nD,
      r.2.mem ((c : Thread nD τ).loc main_v0)
        = overlaps (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) table8 table7
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans ((array_after m c).trans (wholeOf_eq m c)), (h c).2⟩)
    (run_blocks m ρ)

end Cert.KernelIdeal.Whole

end
-- ==== Proof.HostRun.lean ====
/-
  The host program that computes the overlaps of all 65536 pairs of rows at once, run to its end.

  Its result is stated as a composition of whole-array operations of the eight argument arrays: the three affine layers
  with a rectifier after the first two (`feats`, once per input batch), the phase of every basis state for every row
  (`phases`: minus the sum of a product with a fixed 256 × 8 table and a product of neighbouring (π − f) pairs with a fixed 256 × 7
  table), and the cosine of the phase differences summed over the 256 basis states and divided by 256 (`result`). The
  program is a straight line of 75 array operations, the four rectifier calls written out at their call sites; every
  weakly fair execution of it terminates with the result buffer at `result` of the arguments and the arguments unchanged.
-/
import proofs.«142420_j7756710937246_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-! ## The result as a composition of whole-array operations -/

/-- The fixed 256 × 8 table the phases are taken against (the program's first literal table; its entries are never opened here). -/
def signs : FVec F S256x8 .f32 := fun i => FloatOps.ofBits .f32 (lit0 (S256x8.rowMajor i))
/-- The fixed 256 × 7 table of the neighbouring-pair terms (the program's second literal table; never opened here either). -/
def pairSigns : FVec F S256x7 .f32 := fun i => FloatOps.ofBits .f32 (lit1 (S256x7.rowMajor i))

/-- The rectifier on a 65536 × 10 array: the maximum with zero. -/
def rectify (x : FVec F S65536x10 .f32) : FVec F S65536x10 .f32 :=
  maximumf x (broadcastInDim S65536x10 ![] bcast_S_S65536x10 (constant S_ .f32 0x00000000#32))

/-- The features of every row of a batch: three affine layers, a rectifier after the first two. -/
def feats (x : FVec F S65536x8 .f32) (W1 : FVec F S10x8 .f32) (b1 : FVec F S10 .f32) (W2 : FVec F S10x10 .f32)
    (b2 : FVec F S10 .f32) (W3 : FVec F S8x10 .f32) (b3 : FVec F S8 .f32) : FVec F S65536x8 .f32 :=
  addf (Host.dotGeneral dot_S65536x10_S10x8_S65536x8_1_0_0_1_n_n none
      (rectify (addf (Host.dotGeneral dot_S65536x10_S10x10_S65536x10_1_0_0_1_n_n none
          (rectify (addf (Host.dotGeneral dot_S65536x8_S8x10_S65536x10_1_0_0_1_n_n none x
              (transpose S8x10 [1, 0] W1 transposes_S10x8_S8x10_1_0))
            (broadcastInDim S65536x10 ![0, 1] bcast_S1x10_S65536x10_0_1 (broadcastInDim S1x10 ![1] bcast_S10_S1x10_1 b1))))
          (transpose S10x10 [1, 0] W2 transposes_S10x10_S10x10_1_0))
        (broadcastInDim S65536x10 ![0, 1] bcast_S1x10_S65536x10_0_1 (broadcastInDim S1x10 ![1] bcast_S10_S1x10_1 b2))))
      (transpose S10x8 [1, 0] W3 transposes_S8x10_S10x8_1_0))
    (broadcastInDim S65536x8 ![0, 1] bcast_S1x8_S65536x8_0_1 (broadcastInDim S1x8 ![1] bcast_S8_S1x8_1 b3))

/-- π − f, entry by entry. -/
def coFeats (f : FVec F S65536x8 .f32) : FVec F S65536x8 .f32 :=
  subf (broadcastInDim S65536x8 ![] bcast_S_S65536x8 (constant S_ .f32 0x40490FDB#32)) f

/-- The phase of every basis state for every row. -/
def phases (f : FVec F S65536x8 .f32) : FVec F S65536x256 .f32 :=
  Host.negf (addf
    (Host.dotGeneral dot_S65536x8_S8x256_S65536x256_1_0_0_1_n_n none f (transpose S8x256 [1, 0] signs transposes_S256x8_S8x256_1_0))
    (Host.dotGeneral dot_S65536x7_S7x256_S65536x256_1_0_0_1_n_n none
      (mulf (extractStridedSlice S65536x7 ![0, 0] (coFeats f) slices_S65536x8_S65536x7_0_0)
        (extractStridedSlice S65536x7 ![0, 1] (coFeats f) slices_S65536x8_S65536x7_0_1))
      (transpose S7x256 [1, 0] pairSigns transposes_S256x7_S7x256_1_0)))

/-- The overlaps of all pairs of rows. -/
def result (x1 x2 : FVec F S65536x8 .f32) (W1 : FVec F S10x8 .f32) (b1 : FVec F S10 .f32) (W2 : FVec F S10x10 .f32)
    (b2 : FVec F S10 .f32) (W3 : FVec F S8x10 .f32) (b3 : FVec F S8 .f32) : FVec F S65536 .f32 :=
  Host.divf
    (Host.reduceAdd (Host.cos (subf (phases (feats x1 W1 b1 W2 b2 W3 b3)) (phases (feats x2 W1 b1 W2 b2 W3 b3))))
      (constant S_ .f32 0x00000000#32) reducesTo_S65536x256_S65536_d1 h_S_)
    (broadcastInDim S65536 ![] bcast_S_S65536 (constant S_ .f32 0x43800000#32))

/-! ## The program as a list of operations -/

/-- The program's 75 operations, in order; a rectifier call is its three operations over the call's own buffers. -/
abbrev ops : List (HloOp τ sig (Elt F)) :=
  [ nullary main_cst (fun i => FloatOps.ofBits .f32 (lit0 (S256x8.rowMajor i))),
    nullary main_cst_0 (fun i => FloatOps.ofBits .f32 (lit1 (S256x7.rowMajor i))),
    unary main_arg2 main_v0 ((transpose S8x10 [1, 0] · transposes_S10x8_S8x10_1_0) : (⟨S10x8, .f32⟩ : BufTy).Contents (Elt F) → (⟨S8x10, .f32⟩ : BufTy).Contents (Elt F)),
    binary main_arg0 main_v0 main_v1 ((fun l r => Host.dotGeneral dot_S65536x8_S8x10_S65536x10_1_0_0_1_n_n none l r) : (⟨S65536x8, .f32⟩ : BufTy).Contents (Elt F) → (⟨S8x10, .f32⟩ : BufTy).Contents (Elt F) → (⟨S65536x10, .f32⟩ : BufTy).Contents (Elt F)),
    unary main_arg3 main_v2 (broadcastInDim S1x10 ![1] bcast_S10_S1x10_1 : (⟨S10, .f32⟩ : BufTy).Contents (Elt F) → (⟨S1x10, .f32⟩ : BufTy).Contents (Elt F)),
    unary main_v2 main_v3 (broadcastInDim S65536x10 ![0, 1] bcast_S1x10_S65536x10_0_1 : (⟨S1x10, .f32⟩ : BufTy).Contents (Elt F) → (⟨S65536x10, .f32⟩ : BufTy).Contents (Elt F)),
    binary main_v1 main_v3 main_v4 (addf : (⟨S65536x10, .f32⟩ : BufTy).Contents (Elt F) → (⟨S65536x10, .f32⟩ : BufTy).Contents (Elt F) → (⟨S65536x10, .f32⟩ : BufTy).Contents (Elt F)),
    TRef.nullary main_call0.cst (constant S_ .f32 0x00000000#32),
    TRef.unary main_call0.cst main_call0.v0 (broadcastInDim S65536x10 ![] bcast_S_S65536x10),
    TRef.binary (.of main_v4) main_call0.v0 main_call0.v1 maximumf,
    unary main_arg4 main_v6 ((transpose S10x10 [1, 0] · transposes_S10x10_S10x10_1_0) : (⟨S10x10, .f32⟩ : BufTy).Contents (Elt F) → (⟨S10x10, .f32⟩ : BufTy).Contents (Elt F)),
    binary main_v5 main_v6 main_v7 ((fun l r => Host.dotGeneral dot_S65536x10_S10x10_S65536x10_1_0_0_1_n_n none l r) : (⟨S65536x10, .f32⟩ : BufTy).Contents (Elt F) → (⟨S10x10, .f32⟩ : BufTy).Contents (Elt F) → (⟨S65536x10, .f32⟩ : BufTy).Contents (Elt F)),
    unary main_arg5 main_v8 (broadcastInDim S1x10 ![1] bcast_S10_S1x10_1 : (⟨S10, .f32⟩ : BufTy).Contents (Elt F) → (⟨S1x10, .f32⟩ : BufTy).Contents (Elt F)),
    unary main_v8 main_v9 (broadcastInDim S65536x10 ![0, 1] bcast_S1x10_S65536x10_0_1 : (⟨S1x10, .f32⟩ : BufTy).Contents (Elt F) → (⟨S65536x10, .f32⟩ : BufTy).Contents (Elt F)),
    binary main_v7 main_v9 main_v10 (addf : (⟨S65536x10, .f32⟩ : BufTy).Contents (Elt F) → (⟨S65536x10, .f32⟩ : BufTy).Contents (Elt F) → (⟨S65536x10, .f32⟩ : BufTy).Contents (Elt F)),
    TRef.nullary main_call1.cst (constant S_ .f32 0x00000000#32),
    TRef.unary main_call1.cst main_call1.v0 (broadcastInDim S65536x10 ![] bcast_S_S65536x10),
    TRef.binary (.of main_v10) main_call1.v0 main_call1.v1 maximumf,
    unary main_arg6 main_v12 ((transpose S10x8 [1, 0] · transposes_S8x10_S10x8_1_0) : (⟨S8x10, .f32⟩ : BufTy).Contents (Elt F) → (⟨S10x8, .f32⟩ : BufTy).Contents (Elt F)),
    binary main_v11 main_v12 main_v13 ((fun l r => Host.dotGeneral dot_S65536x10_S10x8_S65536x8_1_0_0_1_n_n none l r) : (⟨S65536x10, .f32⟩ : BufTy).Contents (Elt F) → (⟨S10x8, .f32⟩ : BufTy).Contents (Elt F) → (⟨S65536x8, .f32⟩ : BufTy).Contents (Elt F)),
    unary main_arg7 main_v14 (broadcastInDim S1x8 ![1] bcast_S8_S1x8_1 : (⟨S8, .f32⟩ : BufTy).Contents (Elt F) → (⟨S1x8, .f32⟩ : BufTy).Contents (Elt F)),
    unary main_v14 main_v15 (broadcastInDim S65536x8 ![0, 1] bcast_S1x8_S65536x8_0_1 : (⟨S1x8, .f32⟩ : BufTy).Contents (Elt F) → (⟨S65536x8, .f32⟩ : BufTy).Contents (Elt F)),
    binary main_v13 main_v15 main_v16 (addf : (⟨S65536x8, .f32⟩ : BufTy).Contents (Elt F) → (⟨S65536x8, .f32⟩ : BufTy).Contents (Elt F) → (⟨S65536x8, .f32⟩ : BufTy).Contents (Elt F)),
    unary main_arg2 main_v17 ((transpose S8x10 [1, 0] · transposes_S10x8_S8x10_1_0) : (⟨S10x8, .f32⟩ : BufTy).Contents (Elt F) → (⟨S8x10, .f32⟩ : BufTy).Contents (Elt F)),
    binary main_arg1 main_v17 main_v18 ((fun l r => Host.dotGeneral dot_S65536x8_S8x10_S65536x10_1_0_0_1_n_n none l r) : (⟨S65536x8, .f32⟩ : BufTy).Contents (Elt F) → (⟨S8x10, .f32⟩ : BufTy).Contents (Elt F) → (⟨S65536x10, .f32⟩ : BufTy).Contents (Elt F)),
    unary main_arg3 main_v19 (broadcastInDim S1x10 ![1] bcast_S10_S1x10_1 : (⟨S10, .f32⟩ : BufTy).Contents (Elt F) → (⟨S1x10, .f32⟩ : BufTy).Contents (Elt F)),
    unary main_v19 main_v20 (broadcastInDim S65536x10 ![0, 1] bcast_S1x10_S65536x10_0_1 : (⟨S1x10, .f32⟩ : BufTy).Contents (Elt F) → (⟨S65536x10, .f32⟩ : BufTy).Contents (Elt F)),
    binary main_v18 main_v20 main_v21 (addf : (⟨S65536x10, .f32⟩ : BufTy).Contents (Elt F) → (⟨S65536x10, .f32⟩ : BufTy).Contents (Elt F) → (⟨S65536x10, .f32⟩ : BufTy).Contents (Elt F)),
    TRef.nullary main_call2.cst (constant S_ .f32 0x00000000#32),
    TRef.unary main_call2.cst main_call2.v0 (broadcastInDim S65536x10 ![] bcast_S_S65536x10),
    TRef.binary (.of main_v21) main_call2.v0 main_call2.v1 maximumf,
    unary main_arg4 main_v23 ((transpose S10x10 [1, 0] · transposes_S10x10_S10x10_1_0) : (⟨S10x10, .f32⟩ : BufTy).Contents (Elt F) → (⟨S10x10, .f32⟩ : BufTy).Contents (Elt F)),
    binary main_v22 main_v23 main_v24 ((fun l r => Host.dotGeneral dot_S65536x10_S10x10_S65536x10_1_0_0_1_n_n none l r) : (⟨S65536x10, .f32⟩ : BufTy).Contents (Elt F) → (⟨S10x10, .f32⟩ : BufTy).Contents (Elt F) → (⟨S65536x10, .f32⟩ : BufTy).Contents (Elt F)),
    unary main_arg5 main_v25 (broadcastInDim S1x10 ![1] bcast_S10_S1x10_1 : (⟨S10, .f32⟩ : BufTy).Contents (Elt F) → (⟨S1x10, .f32⟩ : BufTy).Contents (Elt F)),
    unary main_v25 main_v26 (broadcastInDim S65536x10 ![0, 1] bcast_S1x10_S65536x10_0_1 : (⟨S1x10, .f32⟩ : BufTy).Contents (Elt F) → (⟨S65536x10, .f32⟩ : BufTy).Contents (Elt F)),
    binary main_v24 main_v26 main_v27 (addf : (⟨S65536x10, .f32⟩ : BufTy).Contents (Elt F) → (⟨S65536x10, .f32⟩ : BufTy).Contents (Elt F) → (⟨S65536x10, .f32⟩ : BufTy).Contents (Elt F)),
    TRef.nullary main_call3.cst (constant S_ .f32 0x00000000#32),
    TRef.unary main_call3.cst main_call3.v0 (broadcastInDim S65536x10 ![] bcast_S_S65536x10),
    TRef.binary (.of main_v27) main_call3.v0 main_call3.v1 maximumf,
    unary main_arg6 main_v29 ((transpose S10x8 [1, 0] · transposes_S8x10_S10x8_1_0) : (⟨S8x10, .f32⟩ : BufTy).Contents (Elt F) → (⟨S10x8, .f32⟩ : BufTy).Contents (Elt F)),
    binary main_v28 main_v29 main_v30 ((fun l r => Host.dotGeneral dot_S65536x10_S10x8_S65536x8_1_0_0_1_n_n none l r) : (⟨S65536x10, .f32⟩ : BufTy).Contents (Elt F) → (⟨S10x8, .f32⟩ : BufTy).Contents (Elt F) → (⟨S65536x8, .f32⟩ : BufTy).Contents (Elt F)),
    unary main_arg7 main_v31 (broadcastInDim S1x8 ![1] bcast_S8_S1x8_1 : (⟨S8, .f32⟩ : BufTy).Contents (Elt F) → (⟨S1x8, .f32⟩ : BufTy).Contents (Elt F)),
    unary main_v31 main_v32 (broadcastInDim S65536x8 ![0, 1] bcast_S1x8_S65536x8_0_1 : (⟨S1x8, .f32⟩ : BufTy).Contents (Elt F) → (⟨S65536x8, .f32⟩ : BufTy).Contents (Elt F)),
    binary main_v30 main_v32 main_v33 (addf : (⟨S65536x8, .f32⟩ : BufTy).Contents (Elt F) → (⟨S65536x8, .f32⟩ : BufTy).Contents (Elt F) → (⟨S65536x8, .f32⟩ : BufTy).Contents (Elt F)),
    nullary main_cst_1 (constant S_ .f32 0x40490FDB#32),
    unary main_cst_1 main_v34 (broadcastInDim S65536x8 ![] bcast_S_S65536x8 : (⟨S_, .f32⟩ : BufTy).Contents (Elt F) → (⟨S65536x8, .f32⟩ : BufTy).Contents (Elt F)),
    binary main_v34 main_v16 main_v35 (subf : (⟨S65536x8, .f32⟩ : BufTy).Contents (Elt F) → (⟨S65536x8, .f32⟩ : BufTy).Contents (Elt F) → (⟨S65536x8, .f32⟩ : BufTy).Contents (Elt F)),
    unary main_cst main_v36 ((transpose S8x256 [1, 0] · transposes_S256x8_S8x256_1_0) : (⟨S256x8, .f32⟩ : BufTy).Contents (Elt F) → (⟨S8x256, .f32⟩ : BufTy).Contents (Elt F)),
    binary main_v16 main_v36 main_v37 ((fun l r => Host.dotGeneral dot_S65536x8_S8x256_S65536x256_1_0_0_1_n_n none l r) : (⟨S65536x8, .f32⟩ : BufTy).Contents (Elt F) → (⟨S8x256, .f32⟩ : BufTy).Contents (Elt F) → (⟨S65536x256, .f32⟩ : BufTy).Contents (Elt F)),
    unary main_v35 main_v38 ((extractStridedSlice S65536x7 ![0, 0] · slices_S65536x8_S65536x7_0_0) : (⟨S65536x8, .f32⟩ : BufTy).Contents (Elt F) → (⟨S65536x7, .f32⟩ : BufTy).Contents (Elt F)),
    unary main_v35 main_v39 ((extractStridedSlice S65536x7 ![0, 1] · slices_S65536x8_S65536x7_0_1) : (⟨S65536x8, .f32⟩ : BufTy).Contents (Elt F) → (⟨S65536x7, .f32⟩ : BufTy).Contents (Elt F)),
    binary main_v38 main_v39 main_v40 (mulf : (⟨S65536x7, .f32⟩ : BufTy).Contents (Elt F) → (⟨S65536x7, .f32⟩ : BufTy).Contents (Elt F) → (⟨S65536x7, .f32⟩ : BufTy).Contents (Elt F)),
    unary main_cst_0 main_v41 ((transpose S7x256 [1, 0] · transposes_S256x7_S7x256_1_0) : (⟨S256x7, .f32⟩ : BufTy).Contents (Elt F) → (⟨S7x256, .f32⟩ : BufTy).Contents (Elt F)),
    binary main_v40 main_v41 main_v42 ((fun l r => Host.dotGeneral dot_S65536x7_S7x256_S65536x256_1_0_0_1_n_n none l r) : (⟨S65536x7, .f32⟩ : BufTy).Contents (Elt F) → (⟨S7x256, .f32⟩ : BufTy).Contents (Elt F) → (⟨S65536x256, .f32⟩ : BufTy).Contents (Elt F)),
    binary main_v37 main_v42 main_v43 (addf : (⟨S65536x256, .f32⟩ : BufTy).Contents (Elt F) → (⟨S65536x256, .f32⟩ : BufTy).Contents (Elt F) → (⟨S65536x256, .f32⟩ : BufTy).Contents (Elt F)),
    unary main_v43 main_v44 (Host.negf : (⟨S65536x256, .f32⟩ : BufTy).Contents (Elt F) → (⟨S65536x256, .f32⟩ : BufTy).Contents (Elt F)),
    nullary main_cst_2 (constant S_ .f32 0x40490FDB#32),
    unary main_cst_2 main_v45 (broadcastInDim S65536x8 ![] bcast_S_S65536x8 : (⟨S_, .f32⟩ : BufTy).Contents (Elt F) → (⟨S65536x8, .f32⟩ : BufTy).Contents (Elt F)),
    binary main_v45 main_v33 main_v46 (subf : (⟨S65536x8, .f32⟩ : BufTy).Contents (Elt F) → (⟨S65536x8, .f32⟩ : BufTy).Contents (Elt F) → (⟨S65536x8, .f32⟩ : BufTy).Contents (Elt F)),
    unary main_cst main_v47 ((transpose S8x256 [1, 0] · transposes_S256x8_S8x256_1_0) : (⟨S256x8, .f32⟩ : BufTy).Contents (Elt F) → (⟨S8x256, .f32⟩ : BufTy).Contents (Elt F)),
    binary main_v33 main_v47 main_v48 ((fun l r => Host.dotGeneral dot_S65536x8_S8x256_S65536x256_1_0_0_1_n_n none l r) : (⟨S65536x8, .f32⟩ : BufTy).Contents (Elt F) → (⟨S8x256, .f32⟩ : BufTy).Contents (Elt F) → (⟨S65536x256, .f32⟩ : BufTy).Contents (Elt F)),
    unary main_v46 main_v49 ((extractStridedSlice S65536x7 ![0, 0] · slices_S65536x8_S65536x7_0_0) : (⟨S65536x8, .f32⟩ : BufTy).Contents (Elt F) → (⟨S65536x7, .f32⟩ : BufTy).Contents (Elt F)),
    unary main_v46 main_v50 ((extractStridedSlice S65536x7 ![0, 1] · slices_S65536x8_S65536x7_0_1) : (⟨S65536x8, .f32⟩ : BufTy).Contents (Elt F) → (⟨S65536x7, .f32⟩ : BufTy).Contents (Elt F)),
    binary main_v49 main_v50 main_v51 (mulf : (⟨S65536x7, .f32⟩ : BufTy).Contents (Elt F) → (⟨S65536x7, .f32⟩ : BufTy).Contents (Elt F) → (⟨S65536x7, .f32⟩ : BufTy).Contents (Elt F)),
    unary main_cst_0 main_v52 ((transpose S7x256 [1, 0] · transposes_S256x7_S7x256_1_0) : (⟨S256x7, .f32⟩ : BufTy).Contents (Elt F) → (⟨S7x256, .f32⟩ : BufTy).Contents (Elt F)),
    binary main_v51 main_v52 main_v53 ((fun l r => Host.dotGeneral dot_S65536x7_S7x256_S65536x256_1_0_0_1_n_n none l r) : (⟨S65536x7, .f32⟩ : BufTy).Contents (Elt F) → (⟨S7x256, .f32⟩ : BufTy).Contents (Elt F) → (⟨S65536x256, .f32⟩ : BufTy).Contents (Elt F)),
    binary main_v48 main_v53 main_v54 (addf : (⟨S65536x256, .f32⟩ : BufTy).Contents (Elt F) → (⟨S65536x256, .f32⟩ : BufTy).Contents (Elt F) → (⟨S65536x256, .f32⟩ : BufTy).Contents (Elt F)),
    unary main_v54 main_v55 (Host.negf : (⟨S65536x256, .f32⟩ : BufTy).Contents (Elt F) → (⟨S65536x256, .f32⟩ : BufTy).Contents (Elt F)),
    binary main_v44 main_v55 main_v56 (subf : (⟨S65536x256, .f32⟩ : BufTy).Contents (Elt F) → (⟨S65536x256, .f32⟩ : BufTy).Contents (Elt F) → (⟨S65536x256, .f32⟩ : BufTy).Contents (Elt F)),
    unary main_v56 main_v57 (Host.cos : (⟨S65536x256, .f32⟩ : BufTy).Contents (Elt F) → (⟨S65536x256, .f32⟩ : BufTy).Contents (Elt F)),
    nullary main_cst_3 (constant S_ .f32 0x00000000#32),
    binary main_v57 main_cst_3 main_v58 ((fun x v => Host.reduceAdd x v reducesTo_S65536x256_S65536_d1 h_S_) : (⟨S65536x256, .f32⟩ : BufTy).Contents (Elt F) → (⟨S_, .f32⟩ : BufTy).Contents (Elt F) → (⟨S65536, .f32⟩ : BufTy).Contents (Elt F)),
    nullary main_cst_4 (constant S_ .f32 0x43800000#32),
    unary main_cst_4 main_v59 (broadcastInDim S65536 ![] bcast_S_S65536 : (⟨S_, .f32⟩ : BufTy).Contents (Elt F) → (⟨S65536, .f32⟩ : BufTy).Contents (Elt F)),
    binary main_v58 main_v59 main_v60 (Host.divf : (⟨S65536, .f32⟩ : BufTy).Contents (Elt F) → (⟨S65536, .f32⟩ : BufTy).Contents (Elt F) → (⟨S65536, .f32⟩ : BufTy).Contents (Elt F)) ]

set_option maxHeartbeats 8000000 in
set_option maxRecDepth 8192 in
/-- The program is that straight line: the two halves of its text and the rectifier's body unfolded at the four calls, both
    sides are one chain of steps once sequencing is reassociated. -/
theorem main_eq (c : Dev nD) : main (F := F) c = seq ops := by
  simp only [main, main_part0, main_part1, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., unary_bufs_sub .., unary_bufs_sub ..,
    binary_bufs_sub .., nullary_bufs_sub .., unary_bufs_sub .., binary_bufs_sub .., unary_bufs_sub .., binary_bufs_sub ..,
    unary_bufs_sub .., unary_bufs_sub .., binary_bufs_sub .., nullary_bufs_sub .., unary_bufs_sub .., binary_bufs_sub ..,
    unary_bufs_sub .., binary_bufs_sub .., unary_bufs_sub .., unary_bufs_sub .., binary_bufs_sub .., unary_bufs_sub ..,
    binary_bufs_sub .., unary_bufs_sub .., unary_bufs_sub .., binary_bufs_sub .., nullary_bufs_sub .., unary_bufs_sub ..,
    binary_bufs_sub .., unary_bufs_sub .., binary_bufs_sub .., unary_bufs_sub .., unary_bufs_sub .., binary_bufs_sub ..,
    nullary_bufs_sub .., unary_bufs_sub .., binary_bufs_sub .., unary_bufs_sub .., binary_bufs_sub .., unary_bufs_sub ..,
    unary_bufs_sub .., binary_bufs_sub .., nullary_bufs_sub .., unary_bufs_sub .., binary_bufs_sub .., unary_bufs_sub ..,
    binary_bufs_sub .., unary_bufs_sub .., unary_bufs_sub .., binary_bufs_sub .., unary_bufs_sub .., binary_bufs_sub ..,
    binary_bufs_sub .., unary_bufs_sub .., nullary_bufs_sub .., unary_bufs_sub .., binary_bufs_sub .., unary_bufs_sub ..,
    binary_bufs_sub .., unary_bufs_sub .., unary_bufs_sub .., binary_bufs_sub .., unary_bufs_sub .., binary_bufs_sub ..,
    binary_bufs_sub .., unary_bufs_sub .., binary_bufs_sub .., unary_bufs_sub .., nullary_bufs_sub .., binary_bufs_sub ..,
    nullary_bufs_sub .., unary_bufs_sub .., binary_bufs_sub ..⟩

/-! ## The run -/

set_option maxHeartbeats 4000000 in
set_option maxRecDepth 8192 in
/-- On every device, from any memory with zero counters: every weakly fair execution of the program terminates with the
    result buffer at `result` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v60) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v60).trans (by
        unfold result phases coFeats feats rectify signs pairSigns
        after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.HostRun

end
-- ==== Proof.LibBroadcastInDim.lean ====
/-
  The host's `broadcast_in_dim` read at an index given by coordinates, for the four forms a bias row and a per-row scale
  take on their way to a matrix: a column `[a, 1]` spread along its unit axis to `[a, b]`; a row `[1, b]` spread along
  its unit axis to `[a, b]`; a vector `[b]` laid as the row `[1, b]`; and a scalar spread to any shape. The index is
  written with the literal-size constructors `ix1`, `ix2`, so that each lemma applies to a printed operation by
  unification.
-/
import Idealize.ShloMosaic.Lib.Pipeline.Value
import Idealize.ShloMosaic.Lib.ValueIdx

namespace Idealize.ShloMosaic.ValueIdx

open Idealize.ShloMosaic

variable {α : Type}

/-- A column `[a, 1]` spread to `[a, b]` (axes kept in place) reads, at `(p, q)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) :=
  broadcastInDim_apply _ h x (ix2 p q) (ix2 p (0 : Fin 1)) (fun ax => match ax with
    | ⟨0, _⟩ => by
      show p.val = if a = 1 then 0 else p.val
      split
      · have := p.isLt; omega
      · rfl
    | ⟨1, _⟩ => by show 0 = if (1 : Nat) = 1 then 0 else q.val; rw [if_pos rfl])

/-- A row `[1, b]` spread to `[a, b]` (axes kept in place) reads, at `(p, q)`, the row's entry of column `q`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) :=
  broadcastInDim_apply _ h x (ix2 p q) (ix2 (0 : Fin 1) q) (fun ax => match ax with
    | ⟨0, _⟩ => by show 0 = if (1 : Nat) = 1 then 0 else p.val; rw [if_pos rfl]
    | ⟨1, _⟩ => by
      show q.val = if b = 1 then 0 else q.val
      split
      · have := q.isLt; omega
      · rfl)

/-- A vector `[b]` laid as the row `[1, b]` reads, at `(u, q)`, the vector's entry `q`. -/
theorem broadcastInDim_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) :=
  broadcastInDim_apply _ h x (ix2 u q) (ix1 q) (fun ax => match ax with
    | ⟨0, _⟩ => by
      show q.val = if b = 1 then 0 else q.val
      split
      · have := q.isLt; omega
      · rfl)

/-- A scalar spread to any shape reads the scalar everywhere. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 (fun ax => ax.elim0)

end Idealize.ShloMosaic.ValueIdx
-- ==== Proof.HostRow.lean ====
/-
  What the array program computes for one row.

  Its result is built from whole-array operations on all 65536 rows, but each of them acts row by row: a dot_general's row r
  needs row r of its left factor only, a bias laid as a row and spread over the rows is the same on every row, a slice that
  drops the first or the last column keeps the rows, and the final sum runs along a row. So entry r of the result is the
  overlap of row r of the first batch with row r of the second, and the whole result is the array of those overlaps.
-/
import proofs.«142420_j7756710937246_1_alg».proof.Proof.HostRun
import proofs.«142420_j7756710937246_1_alg».proof.Proof.Overlap
import proofs.«142420_j7756710937246_1_alg».proof.Proof.LibSideBySide
import proofs.«142420_j7756710937246_1_alg».proof.Proof.LibBroadcastInDim

noncomputable section

namespace Cert.ReferenceIdeal.HostRow

open Cert.ReferenceIdeal Cert.ReferenceIdeal.Gen Cert.ReferenceIdeal.HostRun Idealize.ShloMosaic Idealize.ShloMosaic.ValueIdx Cert.Overlap

/-- Entry r of the array program's result is the overlap of row r of the two batches. -/
theorem result_row (x1 x2 : FVec Ideal S65536x8 .f32) (w1 : FVec Ideal S10x8 .f32) (b1 : FVec Ideal S10 .f32) (w2 : FVec Ideal S10x10 .f32)
    (b2 : FVec Ideal S10 .f32) (w3 : FVec Ideal S8x10 .f32) (b3 : FVec Ideal S8 .f32) (r : Fin 65536) :
    result x1 x2 w1 b1 w2 b2 w3 b3 (ix1 r)
      = overlap w1 b1 w2 b2 w3 b3 (signs (F := Ideal)) (pairSigns (F := Ideal)) (fun l => x1 (ix2 r l)) (fun l => x2 (ix2 r l)) := by
  unfold result phases coFeats feats rectify
  simp only [hostDivf_apply, broadcastInDim_scalar_apply (t := S65536x10) _ bcast_S_S65536x10, broadcastInDim_scalar_apply (t := S65536x8) _ bcast_S_S65536x8,
    broadcastInDim_scalar_apply (t := S65536) _ bcast_S_S65536, constant_apply,
    hostRowSum_apply (n := 65536) (c := 256) _ reducesTo_S65536x256_S65536_d1 (by decide) h_S_,
    hostCos_apply, subf_apply, hostNegf_apply, addf_apply, mulf_apply, maximumf_apply,
    SideBySide.hostProduct_apply dot_S65536x8_S8x256_S65536x256_1_0_0_1_n_n rfl none,
    SideBySide.hostProduct_apply dot_S65536x7_S7x256_S65536x256_1_0_0_1_n_n rfl none,
    SideBySide.hostProduct_apply dot_S65536x8_S8x10_S65536x10_1_0_0_1_n_n rfl none,
    SideBySide.hostProduct_apply dot_S65536x10_S10x10_S65536x10_1_0_0_1_n_n rfl none,
    SideBySide.hostProduct_apply dot_S65536x10_S10x8_S65536x8_1_0_0_1_n_n rfl none,
    transpose_ix2_apply (a := 256) (b := 8), transpose_ix2_apply (a := 256) (b := 7),
    transpose_ix2_apply (a := 10) (b := 8), transpose_ix2_apply (a := 10) (b := 10), transpose_ix2_apply (a := 8) (b := 10),
    broadcastInDim_1b_ab_apply (a := 65536) (b := 10), broadcastInDim_1b_ab_apply (a := 65536) (b := 8),
    broadcastInDim_b_1b_apply (b := 10), broadcastInDim_b_1b_apply (b := 8),
    dropLast_apply (n := 65536), dropFirst_apply (n := 65536),
    SideBySide.entry, Ideal.ofBits_def, Ideal.ofBits_zero_f32]
  unfold overlap angle features affine pi32 dim32
  rfl

/-- So the result is the array of the overlaps of the rows. -/
theorem result_eq (x1 x2 : FVec Ideal S65536x8 .f32) (w1 : FVec Ideal S10x8 .f32) (b1 : FVec Ideal S10 .f32) (w2 : FVec Ideal S10x10 .f32)
    (b2 : FVec Ideal S10 .f32) (w3 : FVec Ideal S8x10 .f32) (b3 : FVec Ideal S8 .f32) :
    result x1 x2 w1 b1 w2 b2 w3 b3
      = overlaps x1 x2 w1 b1 w2 b2 w3 b3 (signs (F := Ideal)) (pairSigns (F := Ideal)) := by
  funext i
  obtain ⟨r, rfl⟩ : ∃ r : Fin 65536, i = ix1 r := ⟨i 0, eq_ix1 i⟩
  rw [result_row, overlaps_apply]

end Cert.ReferenceIdeal.HostRow

end
-- ==== Proof.Tables.lean ====
/-
  The two programs hold the same two fixed tables.

  Each program carries its own copy of a table of 2048 words (the 256 × 8 table, row-major) and of a table of 1792 words
  (the 256 × 7 table), printed as a lookup by position. The copies agree word for word: decided position by position, a
  finite check over 2048 and 1792 positions in which no word is read as a number.
-/
import proofs.«142420_j7756710937246_1_alg».proof.KernelIdeal
import proofs.«142420_j7756710937246_1_alg».proof.ReferenceIdeal

namespace Cert.Tables

/-- The 2048-word tables agree at every position. -/
theorem words8 : Cert.KernelIdeal.lit0 = Cert.ReferenceIdeal.lit0 :=
  funext (by decide +kernel : ∀ i : Fin 2048, Cert.KernelIdeal.lit0 i = Cert.ReferenceIdeal.lit0 i)

/-- The 1792-word tables agree at every position. -/
theorem words7 : Cert.KernelIdeal.lit1 = Cert.ReferenceIdeal.lit1 :=
  funext (by decide +kernel : ∀ i : Fin 1792, Cert.KernelIdeal.lit1 i = Cert.ReferenceIdeal.lit1 i)

end Cert.Tables
-- ==== Proof.lean ====
/-
  The kernel that computes, for 65536 pairs of rows, the overlap of the two states a feature map prepares from them, against
  the plain array program that computes the same.

  Both programs take a row of eight numbers through three affine layers with a rectifier after the first two, form the
  phase −(∑ⱼ fⱼ S(k, j) + ∑ⱼ (π − fⱼ)(π − fⱼ₊₁) SS(k, j)) of each of the 256 basis states from the eight features, and return
  (∑ₖ cos (phase₁ k − phase₂ k)) / 256. The kernel does it on blocks of 4096 rows with matrix-unit products; the array program
  on all 65536 rows at once with dot_general. On the extended reals a matrix-unit product into a zero accumulator and a
  dot_general are the same finite sum, the kernel's 0 − x is the program's −x, both cosines are the one cosine and both
  quotients by 256 the one quotient, and every operation acts row by row, so entry i of either result is the overlap of row i
  of the two batches (Proof/Overlap.lean states it; Proof/KernelRow.lean and Proof/HostRow.lean read the two programs at an
  entry; Proof/KernelArray.lean assembles the kernel's sixteen blocks; Proof/HostRun.lean runs the array program). No law used
  needs an entry to be finite, so the precondition is never opened. The idealized kernel is the kernel's own text read on the
  extended reals: there is nothing to preserve.
-/
import proofs.«142420_j7756710937246_1_alg».proof.Defs
import proofs.«142420_j7756710937246_1_alg».proof.Proof.Gen.Kernel.Frame
import proofs.«142420_j7756710937246_1_alg».proof.Proof.Gen.KernelIdeal.Frame
import proofs.«142420_j7756710937246_1_alg».proof.Proof.Gen.Pre_finite_inputs
import proofs.«142420_j7756710937246_1_alg».proof.Proof.KernelArray
import proofs.«142420_j7756710937246_1_alg».proof.Proof.HostRun
import proofs.«142420_j7756710937246_1_alg».proof.Proof.HostRow
import proofs.«142420_j7756710937246_1_alg».proof.Proof.Tables
import Idealize.ShloMosaic.Adequacy
import Idealize.ShloMosaic.Init

noncomputable section

namespace Cert.Proof

open Idealize.ShloMosaic Idealize.SL.Sem

/-- The kernel's 256 × 8 table is the array program's. -/
theorem table8_eq : Cert.KernelIdeal.Whole.table8 = Cert.ReferenceIdeal.HostRun.signs (F := Ideal) := by
  unfold Cert.KernelIdeal.Whole.table8 Cert.ReferenceIdeal.HostRun.signs
  rw [Cert.Tables.words8]

/-- The kernel's 256 × 7 table is the array program's. -/
theorem table7_eq : Cert.KernelIdeal.Whole.table7 = Cert.ReferenceIdeal.HostRun.pairSigns (F := Ideal) := by
  unfold Cert.KernelIdeal.Whole.table7 Cert.ReferenceIdeal.HostRun.pairSigns
  rw [Cert.Tables.words7]

theorem frame_kernel : Cert.frame_Kernel := fun m ρ _ => Cert.Kernel.Gen.frame m ρ

theorem frame_kernelIdeal : Cert.frame_KernelIdeal := fun m ρ _ => Cert.KernelIdeal.Gen.frame m ρ

/-- The array program's frame is its run with the result dropped. -/
theorem frame_reference : Cert.frame_ReferenceIdeal := fun m ρ _ =>
  (θ_run Cert.ReferenceIdeal.defs _ _).mono (fun _ h c => (h c).2) (Cert.ReferenceIdeal.HostRun.run (F := Ideal) m ρ)

theorem preserves : Cert.preserves_Kernel_KernelIdeal := trivial

/-- Run from memories that agree on the arguments, both programs end with the array of overlaps of the rows of the two
    batches: the kernel's sixteen blocks tile it, and the array program's result is it entry by entry. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.HostRun.run (F := Ideal) m' ρ')
  obtain ⟨a0, a1, a2, a3, a4, a5, a6, a7⟩ := hagree c
  rw [a0, a1, a2, a3, a4, a5, a6, a7, Cert.ReferenceIdeal.HostRow.result_eq, table8_eq, table7_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
